-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S1024x2048 : Shape := ⟨2, ![1024, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel

variable [Facts]

def fn {F : FTy → Type} [FloatOps F] (main_arg0 : IVec S1024x2048 32) (main_arg1 : IVec S1024x2048 1) : IVec S_ 1 :=
  let main_c : IVec S_ 32 := constantI S_ 32 0#32
  let main_v0 : IVec S1024x2048 32 := broadcastInDim S1024x2048 ![] bcast_S_S1024x2048 main_c
  let main_v1 : IVec S1024x2048 1 := cmpi .sge main_arg0 main_v0
  let main_c_0 : IVec S_ 1 := constantI S_ 1 1#1
  let main_v2 : IVec S_ 1 := (fun x v => Host.reduce IntOp.andi x v reducesTo_S1024x2048_S_d0_1 h_S_) main_v1 main_c_0
  main_v2
-- ==== Kernel.lean ====
abbrev S1024x2048 : Shape := ⟨2, ![1024, 2048]⟩
abbrev S_ : Shape := ⟨0, ![]⟩
abbrev S1024x50257 : Shape := ⟨2, ![1024, 50257]⟩
abbrev S32x512 : Shape := ⟨2, ![32, 512]⟩
abbrev S32x50257 : Shape := ⟨2, ![32, 50257]⟩
abbrev S32x200x256 : Shape := ⟨3, ![32, 200, 256]⟩
abbrev S1x1x200 : Shape := ⟨3, ![1, 1, 200]⟩
abbrev S1x1x256 : Shape := ⟨3, ![1, 1, 256]⟩
abbrev S32x512x1 : Shape := ⟨3, ![32, 512, 1]⟩
abbrev S32x512x200 : Shape := ⟨3, ![32, 512, 200]⟩
abbrev S32x512x256 : Shape := ⟨3, ![32, 512, 256]⟩
abbrev S32x1x256 : Shape := ⟨3, ![32, 1, 256]⟩
abbrev S32x256 : Shape := ⟨2, ![32, 256]⟩
abbrev S32x1x81 : Shape := ⟨3, ![32, 1, 81]⟩
abbrev S32x81 : Shape := ⟨2, ![32, 81]⟩

abbrev nBuf : Space → Nat
  | .hbm => 15
  | .vmem => 5
  | .smem => 0
  | _ => 0

abbrev bufTy : (tb : Table) → Fin (tcTables nBuf tb) → BufTy
  | .hbm, ⟨0, _⟩ => ⟨S1024x2048, .i32⟩
  | .hbm, ⟨1, _⟩ => ⟨S1024x2048, .i1⟩
  | .hbm, ⟨2, _⟩ => ⟨S_, .i32⟩
  | .hbm, ⟨3, _⟩ => ⟨S1024x2048, .i32⟩
  | .hbm, ⟨4, _⟩ => ⟨S1024x2048, .i1⟩
  | .hbm, ⟨5, _⟩ => ⟨S1024x2048, .i1⟩
  | .hbm, ⟨6, _⟩ => ⟨S_, .i32⟩
  | .hbm, ⟨7, _⟩ => ⟨S1024x2048, .i32⟩
  | .hbm, ⟨8, _⟩ => ⟨S1024x2048, .i1⟩
  | .hbm, ⟨9, _⟩ => ⟨S1024x2048, .i1⟩
  | .hbm, ⟨10, _⟩ => ⟨S_, .i32⟩
  | .hbm, ⟨11, _⟩ => ⟨S_, .i32⟩
  | .hbm, ⟨12, _⟩ => ⟨S1024x2048, .i32⟩
  | .hbm, ⟨13, _⟩ => ⟨S1024x2048, .i32⟩
  | .hbm, ⟨14, _⟩ => ⟨S1024x50257, .f32⟩
  | .local _ .vmem, ⟨0, _⟩ => ⟨S32x512, .i32⟩
  | .local _ .vmem, ⟨1, _⟩ => ⟨S32x512, .i32⟩
  | .local _ .vmem, ⟨2, _⟩ => ⟨S32x50257, .f32⟩
  | .local _ .vmem, ⟨3, _⟩ => ⟨S32x50257, .f32⟩
  | .local _ .vmem, ⟨4, _⟩ => ⟨S32x200x256, .f32⟩
  | _, _ => ⟨S1024x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_8 : BitVec 32 := 0#32
  let v33 : BitVec 1 := Scalar.cmpi .ne v32 c0_i32_8
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x50257 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  bcast_S_S1024x2048 : S_.BroadcastsInDim S1024x2048 (![] : Fin 0 → Fin S1024x2048.rank)
  inb_S32x200x256_S32x200x256_0_0_0 : ∀ a, (![0, 0, 0] : Fin 3 → Nat) a + S32x200x256.size a ≤ S32x200x256.size a
  h_S32x200x256 : 0 < S32x200x256.numel
  shapeCasts_S32x200x256_S32x200x256 : S32x200x256.ShapeCasts S32x200x256
  inb_S32x512_S32x512_0_0 : ∀ a, (![0, 0] : Fin 2 → Nat) a + S32x512.size a ≤ S32x512.size a
  h_S32x512 : 0 < S32x512.numel
  shapeCasts_S32x512_S32x512 : S32x512.ShapeCasts S32x512
  iota_S1x1x200_d2_w32 : S1x1x200.Iotas .tc 32 [2]
  iota_S1x1x256_d2_w32 : S1x1x256.Iotas .tc 32 [2]
  shapeCasts_S32x512_S32x512x1 : S32x512.ShapeCasts S32x512x1
  broadcasts_S32x512x1_S32x512x200 : S32x512x1.Broadcasts S32x512x200
  broadcasts_S1x1x200_S32x512x200 : S1x1x200.Broadcasts S32x512x200
  natLt_1_32 : 1 < 32
  bitsLt_bf16_f32 : FTy.bits .bf16 < FTy.bits .f32
  broadcasts_S32x512x1_S32x512x256 : S32x512x1.Broadcasts S32x512x256
  broadcasts_S1x1x256_S32x512x256 : S1x1x256.Broadcasts S32x512x256
  inb_S32x200x256_S32x1x256_0_0_0 : ∀ a, (![0, 0, 0] : Fin 3 → Nat) a + S32x1x256.size a ≤ S32x200x256.size a
  h_S32x1x256 : 0 < S32x1x256.numel
  shapeCasts_S32x1x256_S32x256 : S32x1x256.ShapeCasts S32x256
  inb_S32x50257_S32x256_0_0 : ∀ a, (![0, 0] : Fin 2 → Nat) a + S32x256.size a ≤ S32x50257.size a
  h_S32x256 : 0 < S32x256.numel
  inb_S32x200x256_S32x1x256_0_1_0 : ∀ a, (![0, 1, 0] : Fin 3 → Nat) a + S32x1x256.size a ≤ S32x200x256.size a
  inb_S32x50257_S32x256_0_256 : ∀ a, (![0, 256] : Fin 2 → Nat) a + S32x256.size a ≤ S32x50257.size a
  inb_S32x200x256_S32x1x256_0_2_0 : ∀ a, (![0, 2, 0] : Fin 3 → Nat) a + S32x1x256.size a ≤ S32x200x256.size a
  inb_S32x50257_S32x256_0_512 : ∀ a, (![0, 512] : Fin 2 → Nat) a + S32x256.size a ≤ S32x50257.size a
  inb_S32x200x256_S32x1x256_0_3_0 : ∀ a, (![0, 3, 0] : Fin 3 → Nat) a + S32x1x256.size a ≤ S32x200x256.size a
  inb_S32x50257_S32x256_0_768 : ∀ a, (![0, 768] : Fin 2 → Nat) a + S32x256.size a ≤ S32x50257.size a
  inb_S32x200x256_S32x1x256_0_4_0 : ∀ a, (![0, 4, 0] : Fin 3 → Nat) a + S32x1x256.size a ≤ S32x200x256.size a
  inb_S32x50257_S32x256_0_1024 : ∀ a, (![0, 1024] : Fin 2 → Nat) a + S32x256.size a ≤ S32x50257.size a
  inb_S32x200x256_S32x1x256_0_5_0 : ∀ a, (![0, 5, 0] : Fin 3 → Nat) a + S32x1x256.size a ≤ S32x200x256.size a
  inb_S32x50257_S32x256_0_1280 : ∀ a, (![0, 1280] : Fin 2 → Nat) a + S32x256.size a ≤ S32x50257.size a
  inb_S32x200x256_S32x1x256_0_6_0 : ∀ a, (![0, 6, 0] : Fin 3 → Nat) a + S32x1x256.size a ≤ S32x200x256.size a
  inb_S32x50257_S32x256_0_1536 : ∀ a, (![0, 1536] : Fin 2 → Nat) a + S32x256.size a ≤ S32x50257.size a
  inb_S32x200x256_S32x1x256_0_7_0 : ∀ a, (![0, 7, 0] : Fin 3 → Nat) a + S32x1x256.size a ≤ S32x200x256.size a
  inb_S32x50257_S32x256_0_1792 : ∀ a, (![0, 1792] : Fin 2 → Nat) a + S32x256.size a ≤ S32x50257.size a
  inb_S32x200x256_S32x1x256_0_8_0 : ∀ a, (![0, 8, 0] : Fin 3 → Nat) a + S32x1x256.size a ≤ S32x200x256.size a
  inb_S32x50257_S32x256_0_2048 : ∀ a, (![0, 2048] : Fin 2 → Nat) a + S32x256.size a ≤ S32x50257.size a
  inb_S32x200x256_S32x1x256_0_9_0 : ∀ a, (![0, 9, 0] : Fin 3 → Nat) a + S32x1x256.size a ≤ S32x200x256.size a
  inb_S32x50257_S32x256_0_2304 : ∀ a, (![0, 2304] : Fin 2 → Nat) a + S32x256.size a ≤ S32x50257.size a
  inb_S32x200x256_S32x1x256_0_10_0 : ∀ a, (![0, 10, 0] : Fin 3 → Nat) a + S32x1x256.size a ≤ S32x200x256.size a
  inb_S32x50257_S32x256_0_2560 : ∀ a, (![0, 2560] : Fin 2 → Nat) a + S32x256.size a ≤ S32x50257.size a
  inb_S32x200x256_S32x1x256_0_11_0 : ∀ a, (![0, 11, 0] : Fin 3 → Nat) a + S32x1x256.size a ≤ S32x200x256.size a
  inb_S32x50257_S32x256_0_2816 : ∀ a, (![0, 2816] : Fin 2 → Nat) a + S32x256.size a ≤ S32x50257.size a
  inb_S32x200x256_S32x1x256_0_12_0 : ∀ a, (![0, 12, 0] : Fin 3 → Nat) a + S32x1x256.size a ≤ S32x200x256.size a
  inb_S32x50257_S32x256_0_3072 : ∀ a, (![0, 3072] : Fin 2 → Nat) a + S32x256.size a ≤ S32x50257.size a
  inb_S32x200x256_S32x1x256_0_13_0 : ∀ a, (![0, 13, 0] : Fin 3 → Nat) a + S32x1x256.size a ≤ S32x200x256.size a
  inb_S32x50257_S32x256_0_3328 : ∀ a, (![0, 3328] : Fin 2 → Nat) a + S32x256.size a ≤ S32x50257.size a
  inb_S32x200x256_S32x1x256_0_14_0 : ∀ a, (![0, 14, 0] : Fin 3 → Nat) a + S32x1x256.size a ≤ S32x200x256.size a
  inb_S32x50257_S32x256_0_3584 : ∀ a, (![0, 3584] : Fin 2 → Nat) a + S32x256.size a ≤ S32x50257.size a
  inb_S32x200x256_S32x1x256_0_15_0 : ∀ a, (![0, 15, 0] : Fin 3 → Nat) a + S32x1x256.size a ≤ S32x200x256.size a
  inb_S32x50257_S32x256_0_3840 : ∀ a, (![0, 3840] : Fin 2 → Nat) a + S32x256.size a ≤ S32x50257.size a
  inb_S32x200x256_S32x1x256_0_16_0 : ∀ a, (![0, 16, 0] : Fin 3 → Nat) a + S32x1x256.size a ≤ S32x200x256.size a
  inb_S32x50257_S32x256_0_4096 : ∀ a, (![0, 4096] : Fin 2 → Nat) a + S32x256.size a ≤ S32x50257.size a
  inb_S32x200x256_S32x1x256_0_17_0 : ∀ a, (![0, 17, 0] : Fin 3 → Nat) a + S32x1x256.size a ≤ S32x200x256.size a
  inb_S32x50257_S32x256_0_4352 : ∀ a, (![0, 4352] : Fin 2 → Nat) a + S32x256.size a ≤ S32x50257.size a
  inb_S32x200x256_S32x1x256_0_18_0 : ∀ a, (![0, 18, 0] : Fin 3 → Nat) a + S32x1x256.size a ≤ S32x200x256.size a
  inb_S32x50257_S32x256_0_4608 : ∀ a, (![0, 4608] : Fin 2 → Nat) a + S32x256.size a ≤ S32x50257.size a
  inb_S32x200x256_S32x1x256_0_19_0 : ∀ a, (![0, 19, 0] : Fin 3 → Nat) a + S32x1x256.size a ≤ S32x200x256.size a
  inb_S32x50257_S32x256_0_4864 : ∀ a, (![0, 4864] : Fin 2 → Nat) a + S32x256.size a ≤ S32x50257.size a
  inb_S32x200x256_S32x1x256_0_20_0 : ∀ a, (![0, 20, 0] : Fin 3 → Nat) a + S32x1x256.size a ≤ S32x200x256.size a
  inb_S32x50257_S32x256_0_5120 : ∀ a, (![0, 5120] : Fin 2 → Nat) a + S32x256.size a ≤ S32x50257.size a
  inb_S32x200x256_S32x1x256_0_21_0 : ∀ a, (![0, 21, 0] : Fin 3 → Nat) a + S32x1x256.size a ≤ S32x200x256.size a
  inb_S32x50257_S32x256_0_5376 : ∀ a, (![0, 5376] : Fin 2 → Nat) a + S32x256.size a ≤ S32x50257.size a
  inb_S32x200x256_S32x1x256_0_22_0 : ∀ a, (![0, 22, 0] : Fin 3 → Nat) a + S32x1x256.size a ≤ S32x200x256.size a
  inb_S32x50257_S32x256_0_5632 : ∀ a, (![0, 5632] : Fin 2 → Nat) a + S32x256.size a ≤ S32x50257.size a
  inb_S32x200x256_S32x1x256_0_23_0 : ∀ a, (![0, 23, 0] : Fin 3 → Nat) a + S32x1x256.size a ≤ S32x200x256.size a
  inb_S32x50257_S32x256_0_5888 : ∀ a, (![0, 5888] : Fin 2 → Nat) a + S32x256.size a ≤ S32x50257.size a
  inb_S32x200x256_S32x1x256_0_24_0 : ∀ a, (![0, 24, 0] : Fin 3 → Nat) a + S32x1x256.size a ≤ S32x200x256.size a
  inb_S32x50257_S32x256_0_6144 : ∀ a, (![0, 6144] : Fin 2 → Nat) a + S32x256.size a ≤ S32x50257.size a
  inb_S32x200x256_S32x1x256_0_25_0 : ∀ a, (![0, 25, 0] : Fin 3 → Nat) a + S32x1x256.size a ≤ S32x200x256.size a
  inb_S32x50257_S32x256_0_6400 : ∀ a, (![0, 6400] : Fin 2 → Nat) a + S32x256.size a ≤ S32x50257.size a
  inb_S32x200x256_S32x1x256_0_26_0 : ∀ a, (![0, 26, 0] : Fin 3 → Nat) a + S32x1x256.size a ≤ S32x200x256.size a
  inb_S32x50257_S32x256_0_6656 : ∀ a, (![0, 6656] : Fin 2 → Nat) a + S32x256.size a ≤ S32x50257.size a
  inb_S32x200x256_S32x1x256_0_27_0 : ∀ a, (![0, 27, 0] : Fin 3 → Nat) a + S32x1x256.size a ≤ S32x200x256.size a
  inb_S32x50257_S32x256_0_6912 : ∀ a, (![0, 6912] : Fin 2 → Nat) a + S32x256.size a ≤ S32x50257.size a
  inb_S32x200x256_S32x1x256_0_28_0 : ∀ a, (![0, 28, 0] : Fin 3 → Nat) a + S32x1x256.size a ≤ S32x200x256.size a
  inb_S32x50257_S32x256_0_7168 : ∀ a, (![0, 7168] : Fin 2 → Nat) a + S32x256.size a ≤ S32x50257.size a
  inb_S32x200x256_S32x1x256_0_29_0 : ∀ a, (![0, 29, 0] : Fin 3 → Nat) a + S32x1x256.size a ≤ S32x200x256.size a
  inb_S32x50257_S32x256_0_7424 : ∀ a, (![0, 7424] : Fin 2 → Nat) a + S32x256.size a ≤ S32x50257.size a
  inb_S32x200x256_S32x1x256_0_30_0 : ∀ a, (![0, 30, 0] : Fin 3 → Nat) a + S32x1x256.size a ≤ S32x200x256.size a
  inb_S32x50257_S32x256_0_7680 : ∀ a, (![0, 7680] : Fin 2 → Nat) a + S32x256.size a ≤ S32x50257.size a
  inb_S32x200x256_S32x1x256_0_31_0 : ∀ a, (![0, 31, 0] : Fin 3 → Nat) a + S32x1x256.size a ≤ S32x200x256.size a
  inb_S32x50257_S32x256_0_7936 : ∀ a, (![0, 7936] : Fin 2 → Nat) a + S32x256.size a ≤ S32x50257.size a
  inb_S32x200x256_S32x1x256_0_32_0 : ∀ a, (![0, 32, 0] : Fin 3 → Nat) a + S32x1x256.size a ≤ S32x200x256.size a
  inb_S32x50257_S32x256_0_8192 : ∀ a, (![0, 8192] : Fin 2 → Nat) a + S32x256.size a ≤ S32x50257.size a
  inb_S32x200x256_S32x1x256_0_33_0 : ∀ a, (![0, 33, 0] : Fin 3 → Nat) a + S32x1x256.size a ≤ S32x200x256.size a
  inb_S32x50257_S32x256_0_8448 : ∀ a, (![0, 8448] : Fin 2 → Nat) a + S32x256.size a ≤ S32x50257.size a
  inb_S32x200x256_S32x1x256_0_34_0 : ∀ a, (![0, 34, 0] : Fin 3 → Nat) a + S32x1x256.size a ≤ S32x200x256.size a
  inb_S32x50257_S32x256_0_8704 : ∀ a, (![0, 8704] : Fin 2 → Nat) a + S32x256.size a ≤ S32x50257.size a
  inb_S32x200x256_S32x1x256_0_35_0 : ∀ a, (![0, 35, 0] : Fin 3 → Nat) a + S32x1x256.size a ≤ S32x200x256.size a
  inb_S32x50257_S32x256_0_8960 : ∀ a, (![0, 8960] : Fin 2 → Nat) a + S32x256.size a ≤ S32x50257.size a
  inb_S32x200x256_S32x1x256_0_36_0 : ∀ a, (![0, 36, 0] : Fin 3 → Nat) a + S32x1x256.size a ≤ S32x200x256.size a
  inb_S32x50257_S32x256_0_9216 : ∀ a, (![0, 9216] : Fin 2 → Nat) a + S32x256.size a ≤ S32x50257.size a
  inb_S32x200x256_S32x1x256_0_37_0 : ∀ a, (![0, 37, 0] : Fin 3 → Nat) a + S32x1x256.size a ≤ S32x200x256.size a
  inb_S32x50257_S32x256_0_9472 : ∀ a, (![0, 9472] : Fin 2 → Nat) a + S32x256.size a ≤ S32x50257.size a
  inb_S32x200x256_S32x1x256_0_38_0 : ∀ a, (![0, 38, 0] : Fin 3 → Nat) a + S32x1x256.size a ≤ S32x200x256.size a
  inb_S32x50257_S32x256_0_9728 : ∀ a, (![0, 9728] : Fin 2 → Nat) a + S32x256.size a ≤ S32x50257.size a
  inb_S32x200x256_S32x1x256_0_39_0 : ∀ a, (![0, 39, 0] : Fin 3 → Nat) a + S32x1x256.size a ≤ S32x200x256.size a
  inb_S32x50257_S32x256_0_9984 : ∀ a, (![0, 9984] : Fin 2 → Nat) a + S32x256.size a ≤ S32x50257.size a
  inb_S32x200x256_S32x1x256_0_40_0 : ∀ a, (![0, 40, 0] : Fin 3 → Nat) a + S32x1x256.size a ≤ S32x200x256.size a
  inb_S32x50257_S32x256_0_10240 : ∀ a, (![0, 10240] : Fin 2 → Nat) a + S32x256.size a ≤ S32x50257.size a
  inb_S32x200x256_S32x1x256_0_41_0 : ∀ a, (![0, 41, 0] : Fin 3 → Nat) a + S32x1x256.size a ≤ S32x200x256.size a
  inb_S32x50257_S32x256_0_10496 : ∀ a, (![0, 10496] : Fin 2 → Nat) a + S32x256.size a ≤ S32x50257.size a
  inb_S32x200x256_S32x1x256_0_42_0 : ∀ a, (![0, 42, 0] : Fin 3 → Nat) a + S32x1x256.size a ≤ S32x200x256.size a
  inb_S32x50257_S32x256_0_10752 : ∀ a, (![0, 10752] : Fin 2 → Nat) a + S32x256.size a ≤ S32x50257.size a
  inb_S32x200x256_S32x1x256_0_43_0 : ∀ a, (![0, 43, 0] : Fin 3 → Nat) a + S32x1x256.size a ≤ S32x200x256.size a
  inb_S32x50257_S32x256_0_11008 : ∀ a, (![0, 11008] : Fin 2 → Nat) a + S32x256.size a ≤ S32x50257.size a
  inb_S32x200x256_S32x1x256_0_44_0 : ∀ a, (![0, 44, 0] : Fin 3 → Nat) a + S32x1x256.size a ≤ S32x200x256.size a
  inb_S32x50257_S32x256_0_11264 : ∀ a, (![0, 11264] : Fin 2 → Nat) a + S32x256.size a ≤ S32x50257.size a
  inb_S32x200x256_S32x1x256_0_45_0 : ∀ a, (![0, 45, 0] : Fin 3 → Nat) a + S32x1x256.size a ≤ S32x200x256.size a
  inb_S32x50257_S32x256_0_11520 : ∀ a, (![0, 11520] : Fin 2 → Nat) a + S32x256.size a ≤ S32x50257.size a
  inb_S32x200x256_S32x1x256_0_46_0 : ∀ a, (![0, 46, 0] : Fin 3 → Nat) a + S32x1x256.size a ≤ S32x200x256.size a
  inb_S32x50257_S32x256_0_11776 : ∀ a, (![0, 11776] : Fin 2 → Nat) a + S32x256.size a ≤ S32x50257.size a
  inb_S32x200x256_S32x1x256_0_47_0 : ∀ a, (![0, 47, 0] : Fin 3 → Nat) a + S32x1x256.size a ≤ S32x200x256.size a
  inb_S32x50257_S32x256_0_12032 : ∀ a, (![0, 12032] : Fin 2 → Nat) a + S32x256.size a ≤ S32x50257.size a
  inb_S32x200x256_S32x1x256_0_48_0 : ∀ a, (![0, 48, 0] : Fin 3 → Nat) a + S32x1x256.size a ≤ S32x200x256.size a
  inb_S32x50257_S32x256_0_12288 : ∀ a, (![0, 12288] : Fin 2 → Nat) a + S32x256.size a ≤ S32x50257.size a
  inb_S32x200x256_S32x1x256_0_49_0 : ∀ a, (![0, 49, 0] : Fin 3 → Nat) a + S32x1x256.size a ≤ S32x200x256.size a
  inb_S32x50257_S32x256_0_12544 : ∀ a, (![0, 12544] : Fin 2 → Nat) a + S32x256.size a ≤ S32x50257.size a
  inb_S32x200x256_S32x1x256_0_50_0 : ∀ a, (![0, 50, 0] : Fin 3 → Nat) a + S32x1x256.size a ≤ S32x200x256.size a
  inb_S32x50257_S32x256_0_12800 : ∀ a, (![0, 12800] : Fin 2 → Nat) a + S32x256.size a ≤ S32x50257.size a
  inb_S32x200x256_S32x1x256_0_51_0 : ∀ a, (![0, 51, 0] : Fin 3 → Nat) a + S32x1x256.size a ≤ S32x200x256.size a
  inb_S32x50257_S32x256_0_13056 : ∀ a, (![0, 13056] : Fin 2 → Nat) a + S32x256.size a ≤ S32x50257.size a
  inb_S32x200x256_S32x1x256_0_52_0 : ∀ a, (![0, 52, 0] : Fin 3 → Nat) a + S32x1x256.size a ≤ S32x200x256.size a
  inb_S32x50257_S32x256_0_13312 : ∀ a, (![0, 13312] : Fin 2 → Nat) a + S32x256.size a ≤ S32x50257.size a
  inb_S32x200x256_S32x1x256_0_53_0 : ∀ a, (![0, 53, 0] : Fin 3 → Nat) a + S32x1x256.size a ≤ S32x200x256.size a
  inb_S32x50257_S32x256_0_13568 : ∀ a, (![0, 13568] : Fin 2 → Nat) a + S32x256.size a ≤ S32x50257.size a
  inb_S32x200x256_S32x1x256_0_54_0 : ∀ a, (![0, 54, 0] : Fin 3 → Nat) a + S32x1x256.size a ≤ S32x200x256.size a
  inb_S32x50257_S32x256_0_13824 : ∀ a, (![0, 13824] : Fin 2 → Nat) a + S32x256.size a ≤ S32x50257.size a
  inb_S32x200x256_S32x1x256_0_55_0 : ∀ a, (![0, 55, 0] : Fin 3 → Nat) a + S32x1x256.size a ≤ S32x200x256.size a
  inb_S32x50257_S32x256_0_14080 : ∀ a, (![0, 14080] : Fin 2 → Nat) a + S32x256.size a ≤ S32x50257.size a
  inb_S32x200x256_S32x1x256_0_56_0 : ∀ a, (![0, 56, 0] : Fin 3 → Nat) a + S32x1x256.size a ≤ S32x200x256.size a
  inb_S32x50257_S32x256_0_14336 : ∀ a, (![0, 14336] : Fin 2 → Nat) a + S32x256.size a ≤ S32x50257.size a
  inb_S32x200x256_S32x1x256_0_57_0 : ∀ a, (![0, 57, 0] : Fin 3 → Nat) a + S32x1x256.size a ≤ S32x200x256.size a
  inb_S32x50257_S32x256_0_14592 : ∀ a, (![0, 14592] : Fin 2 → Nat) a + S32x256.size a ≤ S32x50257.size a
  inb_S32x200x256_S32x1x256_0_58_0 : ∀ a, (![0, 58, 0] : Fin 3 → Nat) a + S32x1x256.size a ≤ S32x200x256.size a
  inb_S32x50257_S32x256_0_14848 : ∀ a, (![0, 14848] : Fin 2 → Nat) a + S32x256.size a ≤ S32x50257.size a
  inb_S32x200x256_S32x1x256_0_59_0 : ∀ a, (![0, 59, 0] : Fin 3 → Nat) a + S32x1x256.size a ≤ S32x200x256.size a
  inb_S32x50257_S32x256_0_15104 : ∀ a, (![0, 15104] : Fin 2 → Nat) a + S32x256.size a ≤ S32x50257.size a
  inb_S32x200x256_S32x1x256_0_60_0 : ∀ a, (![0, 60, 0] : Fin 3 → Nat) a + S32x1x256.size a ≤ S32x200x256.size a
  inb_S32x50257_S32x256_0_15360 : ∀ a, (![0, 15360] : Fin 2 → Nat) a + S32x256.size a ≤ S32x50257.size a
  inb_S32x200x256_S32x1x256_0_61_0 : ∀ a, (![0, 61, 0] : Fin 3 → Nat) a + S32x1x256.size a ≤ S32x200x256.size a
  inb_S32x50257_S32x256_0_15616 : ∀ a, (![0, 15616] : Fin 2 → Nat) a + S32x256.size a ≤ S32x50257.size a
  inb_S32x200x256_S32x1x256_0_62_0 : ∀ a, (![0, 62, 0] : Fin 3 → Nat) a + S32x1x256.size a ≤ S32x200x256.size a
  inb_S32x50257_S32x256_0_15872 : ∀ a, (![0, 15872] : Fin 2 → Nat) a + S32x256.size a ≤ S32x50257.size a
  inb_S32x200x256_S32x1x256_0_63_0 : ∀ a, (![0, 63, 0] : Fin 3 → Nat) a + S32x1x256.size a ≤ S32x200x256.size a
  inb_S32x50257_S32x256_0_16128 : ∀ a, (![0, 16128] : Fin 2 → Nat) a + S32x256.size a ≤ S32x50257.size a
  inb_S32x200x256_S32x1x256_0_64_0 : ∀ a, (![0, 64, 0] : Fin 3 → Nat) a + S32x1x256.size a ≤ S32x200x256.size a
  inb_S32x50257_S32x256_0_16384 : ∀ a, (![0, 16384] : Fin 2 → Nat) a + S32x256.size a ≤ S32x50257.size a
  inb_S32x200x256_S32x1x256_0_65_0 : ∀ a, (![0, 65, 0] : Fin 3 → Nat) a + S32x1x256.size a ≤ S32x200x256.size a
  inb_S32x50257_S32x256_0_16640 : ∀ a, (![0, 16640] : Fin 2 → Nat) a + S32x256.size a ≤ S32x50257.size a
  inb_S32x200x256_S32x1x256_0_66_0 : ∀ a, (![0, 66, 0] : Fin 3 → Nat) a + S32x1x256.size a ≤ S32x200x256.size a
  inb_S32x50257_S32x256_0_16896 : ∀ a, (![0, 16896] : Fin 2 → Nat) a + S32x256.size a ≤ S32x50257.size a
  inb_S32x200x256_S32x1x256_0_67_0 : ∀ a, (![0, 67, 0] : Fin 3 → Nat) a + S32x1x256.size a ≤ S32x200x256.size a
  inb_S32x50257_S32x256_0_17152 : ∀ a, (![0, 17152] : Fin 2 → Nat) a + S32x256.size a ≤ S32x50257.size a
  inb_S32x200x256_S32x1x256_0_68_0 : ∀ a, (![0, 68, 0] : Fin 3 → Nat) a + S32x1x256.size a ≤ S32x200x256.size a
  inb_S32x50257_S32x256_0_17408 : ∀ a, (![0, 17408] : Fin 2 → Nat) a + S32x256.size a ≤ S32x50257.size a
  inb_S32x200x256_S32x1x256_0_69_0 : ∀ a, (![0, 69, 0] : Fin 3 → Nat) a + S32x1x256.size a ≤ S32x200x256.size a
  inb_S32x50257_S32x256_0_17664 : ∀ a, (![0, 17664] : Fin 2 → Nat) a + S32x256.size a ≤ S32x50257.size a
  inb_S32x200x256_S32x1x256_0_70_0 : ∀ a, (![0, 70, 0] : Fin 3 → Nat) a + S32x1x256.size a ≤ S32x200x256.size a
  inb_S32x50257_S32x256_0_17920 : ∀ a, (![0, 17920] : Fin 2 → Nat) a + S32x256.size a ≤ S32x50257.size a
  inb_S32x200x256_S32x1x256_0_71_0 : ∀ a, (![0, 71, 0] : Fin 3 → Nat) a + S32x1x256.size a ≤ S32x200x256.size a
  inb_S32x50257_S32x256_0_18176 : ∀ a, (![0, 18176] : Fin 2 → Nat) a + S32x256.size a ≤ S32x50257.size a
  inb_S32x200x256_S32x1x256_0_72_0 : ∀ a, (![0, 72, 0] : Fin 3 → Nat) a + S32x1x256.size a ≤ S32x200x256.size a
  inb_S32x50257_S32x256_0_18432 : ∀ a, (![0, 18432] : Fin 2 → Nat) a + S32x256.size a ≤ S32x50257.size a
  inb_S32x200x256_S32x1x256_0_73_0 : ∀ a, (![0, 73, 0] : Fin 3 → Nat) a + S32x1x256.size a ≤ S32x200x256.size a
  inb_S32x50257_S32x256_0_18688 : ∀ a, (![0, 18688] : Fin 2 → Nat) a + S32x256.size a ≤ S32x50257.size a
  inb_S32x200x256_S32x1x256_0_74_0 : ∀ a, (![0, 74, 0] : Fin 3 → Nat) a + S32x1x256.size a ≤ S32x200x256.size a
  inb_S32x50257_S32x256_0_18944 : ∀ a, (![0, 18944] : Fin 2 → Nat) a + S32x256.size a ≤ S32x50257.size a
  inb_S32x200x256_S32x1x256_0_75_0 : ∀ a, (![0, 75, 0] : Fin 3 → Nat) a + S32x1x256.size a ≤ S32x200x256.size a
  inb_S32x50257_S32x256_0_19200 : ∀ a, (![0, 19200] : Fin 2 → Nat) a + S32x256.size a ≤ S32x50257.size a
  inb_S32x200x256_S32x1x256_0_76_0 : ∀ a, (![0, 76, 0] : Fin 3 → Nat) a + S32x1x256.size a ≤ S32x200x256.size a
  inb_S32x50257_S32x256_0_19456 : ∀ a, (![0, 19456] : Fin 2 → Nat) a + S32x256.size a ≤ S32x50257.size a
  inb_S32x200x256_S32x1x256_0_77_0 : ∀ a, (![0, 77, 0] : Fin 3 → Nat) a + S32x1x256.size a ≤ S32x200x256.size a
  inb_S32x50257_S32x256_0_19712 : ∀ a, (![0, 19712] : Fin 2 → Nat) a + S32x256.size a ≤ S32x50257.size a
  inb_S32x200x256_S32x1x256_0_78_0 : ∀ a, (![0, 78, 0] : Fin 3 → Nat) a + S32x1x256.size a ≤ S32x200x256.size a
  inb_S32x50257_S32x256_0_19968 : ∀ a, (![0, 19968] : Fin 2 → Nat) a + S32x256.size a ≤ S32x50257.size a
  inb_S32x200x256_S32x1x256_0_79_0 : ∀ a, (![0, 79, 0] : Fin 3 → Nat) a + S32x1x256.size a ≤ S32x200x256.size a
  inb_S32x50257_S32x256_0_20224 : ∀ a, (![0, 20224] : Fin 2 → Nat) a + S32x256.size a ≤ S32x50257.size a
  inb_S32x200x256_S32x1x256_0_80_0 : ∀ a, (![0, 80, 0] : Fin 3 → Nat) a + S32x1x256.size a ≤ S32x200x256.size a
  inb_S32x50257_S32x256_0_20480 : ∀ a, (![0, 20480] : Fin 2 → Nat) a + S32x256.size a ≤ S32x50257.size a
  inb_S32x200x256_S32x1x256_0_81_0 : ∀ a, (![0, 81, 0] : Fin 3 → Nat) a + S32x1x256.size a ≤ S32x200x256.size a
  inb_S32x50257_S32x256_0_20736 : ∀ a, (![0, 20736] : Fin 2 → Nat) a + S32x256.size a ≤ S32x50257.size a
  inb_S32x200x256_S32x1x256_0_82_0 : ∀ a, (![0, 82, 0] : Fin 3 → Nat) a + S32x1x256.size a ≤ S32x200x256.size a
  inb_S32x50257_S32x256_0_20992 : ∀ a, (![0, 20992] : Fin 2 → Nat) a + S32x256.size a ≤ S32x50257.size a
  inb_S32x200x256_S32x1x256_0_83_0 : ∀ a, (![0, 83, 0] : Fin 3 → Nat) a + S32x1x256.size a ≤ S32x200x256.size a
  inb_S32x50257_S32x256_0_21248 : ∀ a, (![0, 21248] : Fin 2 → Nat) a + S32x256.size a ≤ S32x50257.size a
  inb_S32x200x256_S32x1x256_0_84_0 : ∀ a, (![0, 84, 0] : Fin 3 → Nat) a + S32x1x256.size a ≤ S32x200x256.size a
  inb_S32x50257_S32x256_0_21504 : ∀ a, (![0, 21504] : Fin 2 → Nat) a + S32x256.size a ≤ S32x50257.size a
  inb_S32x200x256_S32x1x256_0_85_0 : ∀ a, (![0, 85, 0] : Fin 3 → Nat) a + S32x1x256.size a ≤ S32x200x256.size a
  inb_S32x50257_S32x256_0_21760 : ∀ a, (![0, 21760] : Fin 2 → Nat) a + S32x256.size a ≤ S32x50257.size a
  inb_S32x200x256_S32x1x256_0_86_0 : ∀ a, (![0, 86, 0] : Fin 3 → Nat) a + S32x1x256.size a ≤ S32x200x256.size a
  inb_S32x50257_S32x256_0_22016 : ∀ a, (![0, 22016] : Fin 2 → Nat) a + S32x256.size a ≤ S32x50257.size a
  inb_S32x200x256_S32x1x256_0_87_0 : ∀ a, (![0, 87, 0] : Fin 3 → Nat) a + S32x1x256.size a ≤ S32x200x256.size a
  inb_S32x50257_S32x256_0_22272 : ∀ a, (![0, 22272] : Fin 2 → Nat) a + S32x256.size a ≤ S32x50257.size a
  inb_S32x200x256_S32x1x256_0_88_0 : ∀ a, (![0, 88, 0] : Fin 3 → Nat) a + S32x1x256.size a ≤ S32x200x256.size a
  inb_S32x50257_S32x256_0_22528 : ∀ a, (![0, 22528] : Fin 2 → Nat) a + S32x256.size a ≤ S32x50257.size a
  inb_S32x200x256_S32x1x256_0_89_0 : ∀ a, (![0, 89, 0] : Fin 3 → Nat) a + S32x1x256.size a ≤ S32x200x256.size a
  inb_S32x50257_S32x256_0_22784 : ∀ a, (![0, 22784] : Fin 2 → Nat) a + S32x256.size a ≤ S32x50257.size a
  inb_S32x200x256_S32x1x256_0_90_0 : ∀ a, (![0, 90, 0] : Fin 3 → Nat) a + S32x1x256.size a ≤ S32x200x256.size a
  inb_S32x50257_S32x256_0_23040 : ∀ a, (![0, 23040] : Fin 2 → Nat) a + S32x256.size a ≤ S32x50257.size a
  inb_S32x200x256_S32x1x256_0_91_0 : ∀ a, (![0, 91, 0] : Fin 3 → Nat) a + S32x1x256.size a ≤ S32x200x256.size a
  inb_S32x50257_S32x256_0_23296 : ∀ a, (![0, 23296] : Fin 2 → Nat) a + S32x256.size a ≤ S32x50257.size a
  inb_S32x200x256_S32x1x256_0_92_0 : ∀ a, (![0, 92, 0] : Fin 3 → Nat) a + S32x1x256.size a ≤ S32x200x256.size a
  inb_S32x50257_S32x256_0_23552 : ∀ a, (![0, 23552] : Fin 2 → Nat) a + S32x256.size a ≤ S32x50257.size a
  inb_S32x200x256_S32x1x256_0_93_0 : ∀ a, (![0, 93, 0] : Fin 3 → Nat) a + S32x1x256.size a ≤ S32x200x256.size a
  inb_S32x50257_S32x256_0_23808 : ∀ a, (![0, 23808] : Fin 2 → Nat) a + S32x256.size a ≤ S32x50257.size a
  inb_S32x200x256_S32x1x256_0_94_0 : ∀ a, (![0, 94, 0] : Fin 3 → Nat) a + S32x1x256.size a ≤ S32x200x256.size a
  inb_S32x50257_S32x256_0_24064 : ∀ a, (![0, 24064] : Fin 2 → Nat) a + S32x256.size a ≤ S32x50257.size a
  inb_S32x200x256_S32x1x256_0_95_0 : ∀ a, (![0, 95, 0] : Fin 3 → Nat) a + S32x1x256.size a ≤ S32x200x256.size a
  inb_S32x50257_S32x256_0_24320 : ∀ a, (![0, 24320] : Fin 2 → Nat) a + S32x256.size a ≤ S32x50257.size a
  inb_S32x200x256_S32x1x256_0_96_0 : ∀ a, (![0, 96, 0] : Fin 3 → Nat) a + S32x1x256.size a ≤ S32x200x256.size a
  inb_S32x50257_S32x256_0_24576 : ∀ a, (![0, 24576] : Fin 2 → Nat) a + S32x256.size a ≤ S32x50257.size a
  inb_S32x200x256_S32x1x256_0_97_0 : ∀ a, (![0, 97, 0] : Fin 3 → Nat) a + S32x1x256.size a ≤ S32x200x256.size a
  inb_S32x50257_S32x256_0_24832 : ∀ a, (![0, 24832] : Fin 2 → Nat) a + S32x256.size a ≤ S32x50257.size a
  inb_S32x200x256_S32x1x256_0_98_0 : ∀ a, (![0, 98, 0] : Fin 3 → Nat) a + S32x1x256.size a ≤ S32x200x256.size a
  inb_S32x50257_S32x256_0_25088 : ∀ a, (![0, 25088] : Fin 2 → Nat) a + S32x256.size a ≤ S32x50257.size a
  inb_S32x200x256_S32x1x256_0_99_0 : ∀ a, (![0, 99, 0] : Fin 3 → Nat) a + S32x1x256.size a ≤ S32x200x256.size a
  inb_S32x50257_S32x256_0_25344 : ∀ a, (![0, 25344] : Fin 2 → Nat) a + S32x256.size a ≤ S32x50257.size a
  inb_S32x200x256_S32x1x256_0_100_0 : ∀ a, (![0, 100, 0] : Fin 3 → Nat) a + S32x1x256.size a ≤ S32x200x256.size a
  inb_S32x50257_S32x256_0_25600 : ∀ a, (![0, 25600] : Fin 2 → Nat) a + S32x256.size a ≤ S32x50257.size a
  inb_S32x200x256_S32x1x256_0_101_0 : ∀ a, (![0, 101, 0] : Fin 3 → Nat) a + S32x1x256.size a ≤ S32x200x256.size a
  inb_S32x50257_S32x256_0_25856 : ∀ a, (![0, 25856] : Fin 2 → Nat) a + S32x256.size a ≤ S32x50257.size a
  inb_S32x200x256_S32x1x256_0_102_0 : ∀ a, (![0, 102, 0] : Fin 3 → Nat) a + S32x1x256.size a ≤ S32x200x256.size a
  inb_S32x50257_S32x256_0_26112 : ∀ a, (![0, 26112] : Fin 2 → Nat) a + S32x256.size a ≤ S32x50257.size a
  inb_S32x200x256_S32x1x256_0_103_0 : ∀ a, (![0, 103, 0] : Fin 3 → Nat) a + S32x1x256.size a ≤ S32x200x256.size a
  inb_S32x50257_S32x256_0_26368 : ∀ a, (![0, 26368] : Fin 2 → Nat) a + S32x256.size a ≤ S32x50257.size a
  inb_S32x200x256_S32x1x256_0_104_0 : ∀ a, (![0, 104, 0] : Fin 3 → Nat) a + S32x1x256.size a ≤ S32x200x256.size a
  inb_S32x50257_S32x256_0_26624 : ∀ a, (![0, 26624] : Fin 2 → Nat) a + S32x256.size a ≤ S32x50257.size a
  inb_S32x200x256_S32x1x256_0_105_0 : ∀ a, (![0, 105, 0] : Fin 3 → Nat) a + S32x1x256.size a ≤ S32x200x256.size a
  inb_S32x50257_S32x256_0_26880 : ∀ a, (![0, 26880] : Fin 2 → Nat) a + S32x256.size a ≤ S32x50257.size a
  inb_S32x200x256_S32x1x256_0_106_0 : ∀ a, (![0, 106, 0] : Fin 3 → Nat) a + S32x1x256.size a ≤ S32x200x256.size a
  inb_S32x50257_S32x256_0_27136 : ∀ a, (![0, 27136] : Fin 2 → Nat) a + S32x256.size a ≤ S32x50257.size a
  inb_S32x200x256_S32x1x256_0_107_0 : ∀ a, (![0, 107, 0] : Fin 3 → Nat) a + S32x1x256.size a ≤ S32x200x256.size a
  inb_S32x50257_S32x256_0_27392 : ∀ a, (![0, 27392] : Fin 2 → Nat) a + S32x256.size a ≤ S32x50257.size a
  inb_S32x200x256_S32x1x256_0_108_0 : ∀ a, (![0, 108, 0] : Fin 3 → Nat) a + S32x1x256.size a ≤ S32x200x256.size a
  inb_S32x50257_S32x256_0_27648 : ∀ a, (![0, 27648] : Fin 2 → Nat) a + S32x256.size a ≤ S32x50257.size a
  inb_S32x200x256_S32x1x256_0_109_0 : ∀ a, (![0, 109, 0] : Fin 3 → Nat) a + S32x1x256.size a ≤ S32x200x256.size a
  inb_S32x50257_S32x256_0_27904 : ∀ a, (![0, 27904] : Fin 2 → Nat) a + S32x256.size a ≤ S32x50257.size a
  inb_S32x200x256_S32x1x256_0_110_0 : ∀ a, (![0, 110, 0] : Fin 3 → Nat) a + S32x1x256.size a ≤ S32x200x256.size a
  inb_S32x50257_S32x256_0_28160 : ∀ a, (![0, 28160] : Fin 2 → Nat) a + S32x256.size a ≤ S32x50257.size a
  inb_S32x200x256_S32x1x256_0_111_0 : ∀ a, (![0, 111, 0] : Fin 3 → Nat) a + S32x1x256.size a ≤ S32x200x256.size a
  inb_S32x50257_S32x256_0_28416 : ∀ a, (![0, 28416] : Fin 2 → Nat) a + S32x256.size a ≤ S32x50257.size a
  inb_S32x200x256_S32x1x256_0_112_0 : ∀ a, (![0, 112, 0] : Fin 3 → Nat) a + S32x1x256.size a ≤ S32x200x256.size a
  inb_S32x50257_S32x256_0_28672 : ∀ a, (![0, 28672] : Fin 2 → Nat) a + S32x256.size a ≤ S32x50257.size a
  inb_S32x200x256_S32x1x256_0_113_0 : ∀ a, (![0, 113, 0] : Fin 3 → Nat) a + S32x1x256.size a ≤ S32x200x256.size a
  inb_S32x50257_S32x256_0_28928 : ∀ a, (![0, 28928] : Fin 2 → Nat) a + S32x256.size a ≤ S32x50257.size a
  inb_S32x200x256_S32x1x256_0_114_0 : ∀ a, (![0, 114, 0] : Fin 3 → Nat) a + S32x1x256.size a ≤ S32x200x256.size a
  inb_S32x50257_S32x256_0_29184 : ∀ a, (![0, 29184] : Fin 2 → Nat) a + S32x256.size a ≤ S32x50257.size a
  inb_S32x200x256_S32x1x256_0_115_0 : ∀ a, (![0, 115, 0] : Fin 3 → Nat) a + S32x1x256.size a ≤ S32x200x256.size a
  inb_S32x50257_S32x256_0_29440 : ∀ a, (![0, 29440] : Fin 2 → Nat) a + S32x256.size a ≤ S32x50257.size a
  inb_S32x200x256_S32x1x256_0_116_0 : ∀ a, (![0, 116, 0] : Fin 3 → Nat) a + S32x1x256.size a ≤ S32x200x256.size a
  inb_S32x50257_S32x256_0_29696 : ∀ a, (![0, 29696] : Fin 2 → Nat) a + S32x256.size a ≤ S32x50257.size a
  inb_S32x200x256_S32x1x256_0_117_0 : ∀ a, (![0, 117, 0] : Fin 3 → Nat) a + S32x1x256.size a ≤ S32x200x256.size a
  inb_S32x50257_S32x256_0_29952 : ∀ a, (![0, 29952] : Fin 2 → Nat) a + S32x256.size a ≤ S32x50257.size a
  inb_S32x200x256_S32x1x256_0_118_0 : ∀ a, (![0, 118, 0] : Fin 3 → Nat) a + S32x1x256.size a ≤ S32x200x256.size a
  inb_S32x50257_S32x256_0_30208 : ∀ a, (![0, 30208] : Fin 2 → Nat) a + S32x256.size a ≤ S32x50257.size a
  inb_S32x200x256_S32x1x256_0_119_0 : ∀ a, (![0, 119, 0] : Fin 3 → Nat) a + S32x1x256.size a ≤ S32x200x256.size a
  inb_S32x50257_S32x256_0_30464 : ∀ a, (![0, 30464] : Fin 2 → Nat) a + S32x256.size a ≤ S32x50257.size a
  inb_S32x200x256_S32x1x256_0_120_0 : ∀ a, (![0, 120, 0] : Fin 3 → Nat) a + S32x1x256.size a ≤ S32x200x256.size a
  inb_S32x50257_S32x256_0_30720 : ∀ a, (![0, 30720] : Fin 2 → Nat) a + S32x256.size a ≤ S32x50257.size a
  inb_S32x200x256_S32x1x256_0_121_0 : ∀ a, (![0, 121, 0] : Fin 3 → Nat) a + S32x1x256.size a ≤ S32x200x256.size a
  inb_S32x50257_S32x256_0_30976 : ∀ a, (![0, 30976] : Fin 2 → Nat) a + S32x256.size a ≤ S32x50257.size a
  inb_S32x200x256_S32x1x256_0_122_0 : ∀ a, (![0, 122, 0] : Fin 3 → Nat) a + S32x1x256.size a ≤ S32x200x256.size a
  inb_S32x50257_S32x256_0_31232 : ∀ a, (![0, 31232] : Fin 2 → Nat) a + S32x256.size a ≤ S32x50257.size a
  inb_S32x200x256_S32x1x256_0_123_0 : ∀ a, (![0, 123, 0] : Fin 3 → Nat) a + S32x1x256.size a ≤ S32x200x256.size a
  inb_S32x50257_S32x256_0_31488 : ∀ a, (![0, 31488] : Fin 2 → Nat) a + S32x256.size a ≤ S32x50257.size a
  inb_S32x200x256_S32x1x256_0_124_0 : ∀ a, (![0, 124, 0] : Fin 3 → Nat) a + S32x1x256.size a ≤ S32x200x256.size a
  inb_S32x50257_S32x256_0_31744 : ∀ a, (![0, 31744] : Fin 2 → Nat) a + S32x256.size a ≤ S32x50257.size a
  inb_S32x200x256_S32x1x256_0_125_0 : ∀ a, (![0, 125, 0] : Fin 3 → Nat) a + S32x1x256.size a ≤ S32x200x256.size a
  inb_S32x50257_S32x256_0_32000 : ∀ a, (![0, 32000] : Fin 2 → Nat) a + S32x256.size a ≤ S32x50257.size a
  inb_S32x200x256_S32x1x256_0_126_0 : ∀ a, (![0, 126, 0] : Fin 3 → Nat) a + S32x1x256.size a ≤ S32x200x256.size a
  inb_S32x50257_S32x256_0_32256 : ∀ a, (![0, 32256] : Fin 2 → Nat) a + S32x256.size a ≤ S32x50257.size a
  inb_S32x200x256_S32x1x256_0_127_0 : ∀ a, (![0, 127, 0] : Fin 3 → Nat) a + S32x1x256.size a ≤ S32x200x256.size a
  inb_S32x50257_S32x256_0_32512 : ∀ a, (![0, 32512] : Fin 2 → Nat) a + S32x256.size a ≤ S32x50257.size a
  inb_S32x200x256_S32x1x256_0_128_0 : ∀ a, (![0, 128, 0] : Fin 3 → Nat) a + S32x1x256.size a ≤ S32x200x256.size a
  inb_S32x50257_S32x256_0_32768 : ∀ a, (![0, 32768] : Fin 2 → Nat) a + S32x256.size a ≤ S32x50257.size a
  inb_S32x200x256_S32x1x256_0_129_0 : ∀ a, (![0, 129, 0] : Fin 3 → Nat) a + S32x1x256.size a ≤ S32x200x256.size a
  inb_S32x50257_S32x256_0_33024 : ∀ a, (![0, 33024] : Fin 2 → Nat) a + S32x256.size a ≤ S32x50257.size a
  inb_S32x200x256_S32x1x256_0_130_0 : ∀ a, (![0, 130, 0] : Fin 3 → Nat) a + S32x1x256.size a ≤ S32x200x256.size a
  inb_S32x50257_S32x256_0_33280 : ∀ a, (![0, 33280] : Fin 2 → Nat) a + S32x256.size a ≤ S32x50257.size a
  inb_S32x200x256_S32x1x256_0_131_0 : ∀ a, (![0, 131, 0] : Fin 3 → Nat) a + S32x1x256.size a ≤ S32x200x256.size a
  inb_S32x50257_S32x256_0_33536 : ∀ a, (![0, 33536] : Fin 2 → Nat) a + S32x256.size a ≤ S32x50257.size a
  inb_S32x200x256_S32x1x256_0_132_0 : ∀ a, (![0, 132, 0] : Fin 3 → Nat) a + S32x1x256.size a ≤ S32x200x256.size a
  inb_S32x50257_S32x256_0_33792 : ∀ a, (![0, 33792] : Fin 2 → Nat) a + S32x256.size a ≤ S32x50257.size a
  inb_S32x200x256_S32x1x256_0_133_0 : ∀ a, (![0, 133, 0] : Fin 3 → Nat) a + S32x1x256.size a ≤ S32x200x256.size a
  inb_S32x50257_S32x256_0_34048 : ∀ a, (![0, 34048] : Fin 2 → Nat) a + S32x256.size a ≤ S32x50257.size a
  inb_S32x200x256_S32x1x256_0_134_0 : ∀ a, (![0, 134, 0] : Fin 3 → Nat) a + S32x1x256.size a ≤ S32x200x256.size a
  inb_S32x50257_S32x256_0_34304 : ∀ a, (![0, 34304] : Fin 2 → Nat) a + S32x256.size a ≤ S32x50257.size a
  inb_S32x200x256_S32x1x256_0_135_0 : ∀ a, (![0, 135, 0] : Fin 3 → Nat) a + S32x1x256.size a ≤ S32x200x256.size a
  inb_S32x50257_S32x256_0_34560 : ∀ a, (![0, 34560] : Fin 2 → Nat) a + S32x256.size a ≤ S32x50257.size a
  inb_S32x200x256_S32x1x256_0_136_0 : ∀ a, (![0, 136, 0] : Fin 3 → Nat) a + S32x1x256.size a ≤ S32x200x256.size a
  inb_S32x50257_S32x256_0_34816 : ∀ a, (![0, 34816] : Fin 2 → Nat) a + S32x256.size a ≤ S32x50257.size a
  inb_S32x200x256_S32x1x256_0_137_0 : ∀ a, (![0, 137, 0] : Fin 3 → Nat) a + S32x1x256.size a ≤ S32x200x256.size a
  inb_S32x50257_S32x256_0_35072 : ∀ a, (![0, 35072] : Fin 2 → Nat) a + S32x256.size a ≤ S32x50257.size a
  inb_S32x200x256_S32x1x256_0_138_0 : ∀ a, (![0, 138, 0] : Fin 3 → Nat) a + S32x1x256.size a ≤ S32x200x256.size a
  inb_S32x50257_S32x256_0_35328 : ∀ a, (![0, 35328] : Fin 2 → Nat) a + S32x256.size a ≤ S32x50257.size a
  inb_S32x200x256_S32x1x256_0_139_0 : ∀ a, (![0, 139, 0] : Fin 3 → Nat) a + S32x1x256.size a ≤ S32x200x256.size a
  inb_S32x50257_S32x256_0_35584 : ∀ a, (![0, 35584] : Fin 2 → Nat) a + S32x256.size a ≤ S32x50257.size a
  inb_S32x200x256_S32x1x256_0_140_0 : ∀ a, (![0, 140, 0] : Fin 3 → Nat) a + S32x1x256.size a ≤ S32x200x256.size a
  inb_S32x50257_S32x256_0_35840 : ∀ a, (![0, 35840] : Fin 2 → Nat) a + S32x256.size a ≤ S32x50257.size a
  inb_S32x200x256_S32x1x256_0_141_0 : ∀ a, (![0, 141, 0] : Fin 3 → Nat) a + S32x1x256.size a ≤ S32x200x256.size a
  inb_S32x50257_S32x256_0_36096 : ∀ a, (![0, 36096] : Fin 2 → Nat) a + S32x256.size a ≤ S32x50257.size a
  inb_S32x200x256_S32x1x256_0_142_0 : ∀ a, (![0, 142, 0] : Fin 3 → Nat) a + S32x1x256.size a ≤ S32x200x256.size a
  inb_S32x50257_S32x256_0_36352 : ∀ a, (![0, 36352] : Fin 2 → Nat) a + S32x256.size a ≤ S32x50257.size a
  inb_S32x200x256_S32x1x256_0_143_0 : ∀ a, (![0, 143, 0] : Fin 3 → Nat) a + S32x1x256.size a ≤ S32x200x256.size a
  inb_S32x50257_S32x256_0_36608 : ∀ a, (![0, 36608] : Fin 2 → Nat) a + S32x256.size a ≤ S32x50257.size a
  inb_S32x200x256_S32x1x256_0_144_0 : ∀ a, (![0, 144, 0] : Fin 3 → Nat) a + S32x1x256.size a ≤ S32x200x256.size a
  inb_S32x50257_S32x256_0_36864 : ∀ a, (![0, 36864] : Fin 2 → Nat) a + S32x256.size a ≤ S32x50257.size a
  inb_S32x200x256_S32x1x256_0_145_0 : ∀ a, (![0, 145, 0] : Fin 3 → Nat) a + S32x1x256.size a ≤ S32x200x256.size a
  inb_S32x50257_S32x256_0_37120 : ∀ a, (![0, 37120] : Fin 2 → Nat) a + S32x256.size a ≤ S32x50257.size a
  inb_S32x200x256_S32x1x256_0_146_0 : ∀ a, (![0, 146, 0] : Fin 3 → Nat) a + S32x1x256.size a ≤ S32x200x256.size a
  inb_S32x50257_S32x256_0_37376 : ∀ a, (![0, 37376] : Fin 2 → Nat) a + S32x256.size a ≤ S32x50257.size a
  inb_S32x200x256_S32x1x256_0_147_0 : ∀ a, (![0, 147, 0] : Fin 3 → Nat) a + S32x1x256.size a ≤ S32x200x256.size a
  inb_S32x50257_S32x256_0_37632 : ∀ a, (![0, 37632] : Fin 2 → Nat) a + S32x256.size a ≤ S32x50257.size a
  inb_S32x200x256_S32x1x256_0_148_0 : ∀ a, (![0, 148, 0] : Fin 3 → Nat) a + S32x1x256.size a ≤ S32x200x256.size a
  inb_S32x50257_S32x256_0_37888 : ∀ a, (![0, 37888] : Fin 2 → Nat) a + S32x256.size a ≤ S32x50257.size a
  inb_S32x200x256_S32x1x256_0_149_0 : ∀ a, (![0, 149, 0] : Fin 3 → Nat) a + S32x1x256.size a ≤ S32x200x256.size a
  inb_S32x50257_S32x256_0_38144 : ∀ a, (![0, 38144] : Fin 2 → Nat) a + S32x256.size a ≤ S32x50257.size a
  inb_S32x200x256_S32x1x256_0_150_0 : ∀ a, (![0, 150, 0] : Fin 3 → Nat) a + S32x1x256.size a ≤ S32x200x256.size a
  inb_S32x50257_S32x256_0_38400 : ∀ a, (![0, 38400] : Fin 2 → Nat) a + S32x256.size a ≤ S32x50257.size a
  inb_S32x200x256_S32x1x256_0_151_0 : ∀ a, (![0, 151, 0] : Fin 3 → Nat) a + S32x1x256.size a ≤ S32x200x256.size a
  inb_S32x50257_S32x256_0_38656 : ∀ a, (![0, 38656] : Fin 2 → Nat) a + S32x256.size a ≤ S32x50257.size a
  inb_S32x200x256_S32x1x256_0_152_0 : ∀ a, (![0, 152, 0] : Fin 3 → Nat) a + S32x1x256.size a ≤ S32x200x256.size a
  inb_S32x50257_S32x256_0_38912 : ∀ a, (![0, 38912] : Fin 2 → Nat) a + S32x256.size a ≤ S32x50257.size a
  inb_S32x200x256_S32x1x256_0_153_0 : ∀ a, (![0, 153, 0] : Fin 3 → Nat) a + S32x1x256.size a ≤ S32x200x256.size a
  inb_S32x50257_S32x256_0_39168 : ∀ a, (![0, 39168] : Fin 2 → Nat) a + S32x256.size a ≤ S32x50257.size a
  inb_S32x200x256_S32x1x256_0_154_0 : ∀ a, (![0, 154, 0] : Fin 3 → Nat) a + S32x1x256.size a ≤ S32x200x256.size a
  inb_S32x50257_S32x256_0_39424 : ∀ a, (![0, 39424] : Fin 2 → Nat) a + S32x256.size a ≤ S32x50257.size a
  inb_S32x200x256_S32x1x256_0_155_0 : ∀ a, (![0, 155, 0] : Fin 3 → Nat) a + S32x1x256.size a ≤ S32x200x256.size a
  inb_S32x50257_S32x256_0_39680 : ∀ a, (![0, 39680] : Fin 2 → Nat) a + S32x256.size a ≤ S32x50257.size a
  inb_S32x200x256_S32x1x256_0_156_0 : ∀ a, (![0, 156, 0] : Fin 3 → Nat) a + S32x1x256.size a ≤ S32x200x256.size a
  inb_S32x50257_S32x256_0_39936 : ∀ a, (![0, 39936] : Fin 2 → Nat) a + S32x256.size a ≤ S32x50257.size a
  inb_S32x200x256_S32x1x256_0_157_0 : ∀ a, (![0, 157, 0] : Fin 3 → Nat) a + S32x1x256.size a ≤ S32x200x256.size a
  inb_S32x50257_S32x256_0_40192 : ∀ a, (![0, 40192] : Fin 2 → Nat) a + S32x256.size a ≤ S32x50257.size a
  inb_S32x200x256_S32x1x256_0_158_0 : ∀ a, (![0, 158, 0] : Fin 3 → Nat) a + S32x1x256.size a ≤ S32x200x256.size a
  inb_S32x50257_S32x256_0_40448 : ∀ a, (![0, 40448] : Fin 2 → Nat) a + S32x256.size a ≤ S32x50257.size a
  inb_S32x200x256_S32x1x256_0_159_0 : ∀ a, (![0, 159, 0] : Fin 3 → Nat) a + S32x1x256.size a ≤ S32x200x256.size a
  inb_S32x50257_S32x256_0_40704 : ∀ a, (![0, 40704] : Fin 2 → Nat) a + S32x256.size a ≤ S32x50257.size a
  inb_S32x200x256_S32x1x256_0_160_0 : ∀ a, (![0, 160, 0] : Fin 3 → Nat) a + S32x1x256.size a ≤ S32x200x256.size a
  inb_S32x50257_S32x256_0_40960 : ∀ a, (![0, 40960] : Fin 2 → Nat) a + S32x256.size a ≤ S32x50257.size a
  inb_S32x200x256_S32x1x256_0_161_0 : ∀ a, (![0, 161, 0] : Fin 3 → Nat) a + S32x1x256.size a ≤ S32x200x256.size a
  inb_S32x50257_S32x256_0_41216 : ∀ a, (![0, 41216] : Fin 2 → Nat) a + S32x256.size a ≤ S32x50257.size a
  inb_S32x200x256_S32x1x256_0_162_0 : ∀ a, (![0, 162, 0] : Fin 3 → Nat) a + S32x1x256.size a ≤ S32x200x256.size a
  inb_S32x50257_S32x256_0_41472 : ∀ a, (![0, 41472] : Fin 2 → Nat) a + S32x256.size a ≤ S32x50257.size a
  inb_S32x200x256_S32x1x256_0_163_0 : ∀ a, (![0, 163, 0] : Fin 3 → Nat) a + S32x1x256.size a ≤ S32x200x256.size a
  inb_S32x50257_S32x256_0_41728 : ∀ a, (![0, 41728] : Fin 2 → Nat) a + S32x256.size a ≤ S32x50257.size a
  inb_S32x200x256_S32x1x256_0_164_0 : ∀ a, (![0, 164, 0] : Fin 3 → Nat) a + S32x1x256.size a ≤ S32x200x256.size a
  inb_S32x50257_S32x256_0_41984 : ∀ a, (![0, 41984] : Fin 2 → Nat) a + S32x256.size a ≤ S32x50257.size a
  inb_S32x200x256_S32x1x256_0_165_0 : ∀ a, (![0, 165, 0] : Fin 3 → Nat) a + S32x1x256.size a ≤ S32x200x256.size a
  inb_S32x50257_S32x256_0_42240 : ∀ a, (![0, 42240] : Fin 2 → Nat) a + S32x256.size a ≤ S32x50257.size a
  inb_S32x200x256_S32x1x256_0_166_0 : ∀ a, (![0, 166, 0] : Fin 3 → Nat) a + S32x1x256.size a ≤ S32x200x256.size a
  inb_S32x50257_S32x256_0_42496 : ∀ a, (![0, 42496] : Fin 2 → Nat) a + S32x256.size a ≤ S32x50257.size a
  inb_S32x200x256_S32x1x256_0_167_0 : ∀ a, (![0, 167, 0] : Fin 3 → Nat) a + S32x1x256.size a ≤ S32x200x256.size a
  inb_S32x50257_S32x256_0_42752 : ∀ a, (![0, 42752] : Fin 2 → Nat) a + S32x256.size a ≤ S32x50257.size a
  inb_S32x200x256_S32x1x256_0_168_0 : ∀ a, (![0, 168, 0] : Fin 3 → Nat) a + S32x1x256.size a ≤ S32x200x256.size a
  inb_S32x50257_S32x256_0_43008 : ∀ a, (![0, 43008] : Fin 2 → Nat) a + S32x256.size a ≤ S32x50257.size a
  inb_S32x200x256_S32x1x256_0_169_0 : ∀ a, (![0, 169, 0] : Fin 3 → Nat) a + S32x1x256.size a ≤ S32x200x256.size a
  inb_S32x50257_S32x256_0_43264 : ∀ a, (![0, 43264] : Fin 2 → Nat) a + S32x256.size a ≤ S32x50257.size a
  inb_S32x200x256_S32x1x256_0_170_0 : ∀ a, (![0, 170, 0] : Fin 3 → Nat) a + S32x1x256.size a ≤ S32x200x256.size a
  inb_S32x50257_S32x256_0_43520 : ∀ a, (![0, 43520] : Fin 2 → Nat) a + S32x256.size a ≤ S32x50257.size a
  inb_S32x200x256_S32x1x256_0_171_0 : ∀ a, (![0, 171, 0] : Fin 3 → Nat) a + S32x1x256.size a ≤ S32x200x256.size a
  inb_S32x50257_S32x256_0_43776 : ∀ a, (![0, 43776] : Fin 2 → Nat) a + S32x256.size a ≤ S32x50257.size a
  inb_S32x200x256_S32x1x256_0_172_0 : ∀ a, (![0, 172, 0] : Fin 3 → Nat) a + S32x1x256.size a ≤ S32x200x256.size a
  inb_S32x50257_S32x256_0_44032 : ∀ a, (![0, 44032] : Fin 2 → Nat) a + S32x256.size a ≤ S32x50257.size a
  inb_S32x200x256_S32x1x256_0_173_0 : ∀ a, (![0, 173, 0] : Fin 3 → Nat) a + S32x1x256.size a ≤ S32x200x256.size a
  inb_S32x50257_S32x256_0_44288 : ∀ a, (![0, 44288] : Fin 2 → Nat) a + S32x256.size a ≤ S32x50257.size a
  inb_S32x200x256_S32x1x256_0_174_0 : ∀ a, (![0, 174, 0] : Fin 3 → Nat) a + S32x1x256.size a ≤ S32x200x256.size a
  inb_S32x50257_S32x256_0_44544 : ∀ a, (![0, 44544] : Fin 2 → Nat) a + S32x256.size a ≤ S32x50257.size a
  inb_S32x200x256_S32x1x256_0_175_0 : ∀ a, (![0, 175, 0] : Fin 3 → Nat) a + S32x1x256.size a ≤ S32x200x256.size a
  inb_S32x50257_S32x256_0_44800 : ∀ a, (![0, 44800] : Fin 2 → Nat) a + S32x256.size a ≤ S32x50257.size a
  inb_S32x200x256_S32x1x256_0_176_0 : ∀ a, (![0, 176, 0] : Fin 3 → Nat) a + S32x1x256.size a ≤ S32x200x256.size a
  inb_S32x50257_S32x256_0_45056 : ∀ a, (![0, 45056] : Fin 2 → Nat) a + S32x256.size a ≤ S32x50257.size a
  inb_S32x200x256_S32x1x256_0_177_0 : ∀ a, (![0, 177, 0] : Fin 3 → Nat) a + S32x1x256.size a ≤ S32x200x256.size a
  inb_S32x50257_S32x256_0_45312 : ∀ a, (![0, 45312] : Fin 2 → Nat) a + S32x256.size a ≤ S32x50257.size a
  inb_S32x200x256_S32x1x256_0_178_0 : ∀ a, (![0, 178, 0] : Fin 3 → Nat) a + S32x1x256.size a ≤ S32x200x256.size a
  inb_S32x50257_S32x256_0_45568 : ∀ a, (![0, 45568] : Fin 2 → Nat) a + S32x256.size a ≤ S32x50257.size a
  inb_S32x200x256_S32x1x256_0_179_0 : ∀ a, (![0, 179, 0] : Fin 3 → Nat) a + S32x1x256.size a ≤ S32x200x256.size a
  inb_S32x50257_S32x256_0_45824 : ∀ a, (![0, 45824] : Fin 2 → Nat) a + S32x256.size a ≤ S32x50257.size a
  inb_S32x200x256_S32x1x256_0_180_0 : ∀ a, (![0, 180, 0] : Fin 3 → Nat) a + S32x1x256.size a ≤ S32x200x256.size a
  inb_S32x50257_S32x256_0_46080 : ∀ a, (![0, 46080] : Fin 2 → Nat) a + S32x256.size a ≤ S32x50257.size a
  inb_S32x200x256_S32x1x256_0_181_0 : ∀ a, (![0, 181, 0] : Fin 3 → Nat) a + S32x1x256.size a ≤ S32x200x256.size a
  inb_S32x50257_S32x256_0_46336 : ∀ a, (![0, 46336] : Fin 2 → Nat) a + S32x256.size a ≤ S32x50257.size a
  inb_S32x200x256_S32x1x256_0_182_0 : ∀ a, (![0, 182, 0] : Fin 3 → Nat) a + S32x1x256.size a ≤ S32x200x256.size a
  inb_S32x50257_S32x256_0_46592 : ∀ a, (![0, 46592] : Fin 2 → Nat) a + S32x256.size a ≤ S32x50257.size a
  inb_S32x200x256_S32x1x256_0_183_0 : ∀ a, (![0, 183, 0] : Fin 3 → Nat) a + S32x1x256.size a ≤ S32x200x256.size a
  inb_S32x50257_S32x256_0_46848 : ∀ a, (![0, 46848] : Fin 2 → Nat) a + S32x256.size a ≤ S32x50257.size a
  inb_S32x200x256_S32x1x256_0_184_0 : ∀ a, (![0, 184, 0] : Fin 3 → Nat) a + S32x1x256.size a ≤ S32x200x256.size a
  inb_S32x50257_S32x256_0_47104 : ∀ a, (![0, 47104] : Fin 2 → Nat) a + S32x256.size a ≤ S32x50257.size a
  inb_S32x200x256_S32x1x256_0_185_0 : ∀ a, (![0, 185, 0] : Fin 3 → Nat) a + S32x1x256.size a ≤ S32x200x256.size a
  inb_S32x50257_S32x256_0_47360 : ∀ a, (![0, 47360] : Fin 2 → Nat) a + S32x256.size a ≤ S32x50257.size a
  inb_S32x200x256_S32x1x256_0_186_0 : ∀ a, (![0, 186, 0] : Fin 3 → Nat) a + S32x1x256.size a ≤ S32x200x256.size a
  inb_S32x50257_S32x256_0_47616 : ∀ a, (![0, 47616] : Fin 2 → Nat) a + S32x256.size a ≤ S32x50257.size a
  inb_S32x200x256_S32x1x256_0_187_0 : ∀ a, (![0, 187, 0] : Fin 3 → Nat) a + S32x1x256.size a ≤ S32x200x256.size a
  inb_S32x50257_S32x256_0_47872 : ∀ a, (![0, 47872] : Fin 2 → Nat) a + S32x256.size a ≤ S32x50257.size a
  inb_S32x200x256_S32x1x256_0_188_0 : ∀ a, (![0, 188, 0] : Fin 3 → Nat) a + S32x1x256.size a ≤ S32x200x256.size a
  inb_S32x50257_S32x256_0_48128 : ∀ a, (![0, 48128] : Fin 2 → Nat) a + S32x256.size a ≤ S32x50257.size a
  inb_S32x200x256_S32x1x256_0_189_0 : ∀ a, (![0, 189, 0] : Fin 3 → Nat) a + S32x1x256.size a ≤ S32x200x256.size a
  inb_S32x50257_S32x256_0_48384 : ∀ a, (![0, 48384] : Fin 2 → Nat) a + S32x256.size a ≤ S32x50257.size a
  inb_S32x200x256_S32x1x256_0_190_0 : ∀ a, (![0, 190, 0] : Fin 3 → Nat) a + S32x1x256.size a ≤ S32x200x256.size a
  inb_S32x50257_S32x256_0_48640 : ∀ a, (![0, 48640] : Fin 2 → Nat) a + S32x256.size a ≤ S32x50257.size a
  inb_S32x200x256_S32x1x256_0_191_0 : ∀ a, (![0, 191, 0] : Fin 3 → Nat) a + S32x1x256.size a ≤ S32x200x256.size a
  inb_S32x50257_S32x256_0_48896 : ∀ a, (![0, 48896] : Fin 2 → Nat) a + S32x256.size a ≤ S32x50257.size a
  inb_S32x200x256_S32x1x256_0_192_0 : ∀ a, (![0, 192, 0] : Fin 3 → Nat) a + S32x1x256.size a ≤ S32x200x256.size a
  inb_S32x50257_S32x256_0_49152 : ∀ a, (![0, 49152] : Fin 2 → Nat) a + S32x256.size a ≤ S32x50257.size a
  inb_S32x200x256_S32x1x256_0_193_0 : ∀ a, (![0, 193, 0] : Fin 3 → Nat) a + S32x1x256.size a ≤ S32x200x256.size a
  inb_S32x50257_S32x256_0_49408 : ∀ a, (![0, 49408] : Fin 2 → Nat) a + S32x256.size a ≤ S32x50257.size a
  inb_S32x200x256_S32x1x256_0_194_0 : ∀ a, (![0, 194, 0] : Fin 3 → Nat) a + S32x1x256.size a ≤ S32x200x256.size a
  inb_S32x50257_S32x256_0_49664 : ∀ a, (![0, 49664] : Fin 2 → Nat) a + S32x256.size a ≤ S32x50257.size a
  inb_S32x200x256_S32x1x256_0_195_0 : ∀ a, (![0, 195, 0] : Fin 3 → Nat) a + S32x1x256.size a ≤ S32x200x256.size a
  inb_S32x50257_S32x256_0_49920 : ∀ a, (![0, 49920] : Fin 2 → Nat) a + S32x256.size a ≤ S32x50257.size a
  inb_S32x200x256_S32x1x81_0_196_0 : ∀ a, (![0, 196, 0] : Fin 3 → Nat) a + S32x1x81.size a ≤ S32x200x256.size a
  h_S32x1x81 : 0 < S32x1x81.numel
  shapeCasts_S32x1x81_S32x81 : S32x1x81.ShapeCasts S32x81
  inb_S32x50257_S32x81_0_50176 : ∀ a, (![0, 50176] : Fin 2 → Nat) a + S32x81.size a ≤ S32x50257.size a
  h_S32x81 : 0 < S32x81.numel
  dot_S32x512x200_S32x512x256_S32x200x256_1_1_2_2_0_0_wf : DotDims.WF S32x512x200 S32x512x256 S32x200x256 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S1024x2048.size a
  hwx0_0 : ∀ i : grid0.Coords, EltTy.bits .i32 = 32 ∨ (Rect.block (s := S1024x2048) S32x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x50257.size a ≤ S1024x50257.size a
  hwx0_1 : ∀ i : grid0.Coords, EltTy.bits .f32 = 32 ∨ (Rect.block (s := S1024x50257) S32x50257.size (cc0_transform_1 i) (hinb0_1 i)).WholeWords (EltTy.packing .f32)

variable [Facts₀]

def dot_S32x512x200_S32x512x256_S32x200x256_1_1_2_2_0_0 : DotDims S32x512x200 S32x512x256 S32x200x256 where
  lhsContracting := [1]
  rhsContracting := [1]
  lhsNonContracting := [2]
  rhsNonContracting := [2]
  lhsBatch := [0]
  rhsBatch := [0]
  wf := dot_S32x512x200_S32x512x256_S32x200x256_1_1_2_2_0_0_wf

abbrev win0_0 : Pipeline.Window sig grid0 :=
  Pipeline.Window.ofSpec (Memref.whole main_v6) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S32x50257.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S1024x2048 : Shape := ⟨2, ![1024, 2048]⟩
abbrev S1024 : Shape := ⟨1, ![1024]⟩
abbrev S1024x1 : Shape := ⟨2, ![1024, 1]⟩
abbrev S_ : Shape := ⟨0, ![]⟩
abbrev S1024x50257 : Shape := ⟨2, ![1024, 50257]⟩
abbrev S1024x2048x1 : Shape := ⟨3, ![1024, 2048, 1]⟩
abbrev S1024x2048x2 : Shape := ⟨3, ![1024, 2048, 2]⟩

abbrev nBuf : Space → Nat
  | .hbm => 26
  | .vmem => 0
  | .smem => 0
  | _ => 0

abbrev bufTy : (tb : Table) → Fin (tcTables nBuf tb) → BufTy
  | .hbm, ⟨0, _⟩ => ⟨S1024x2048, .i32⟩
  | .hbm, ⟨1, _⟩ => ⟨S1024x2048, .i1⟩
  | .hbm, ⟨2, _⟩ => ⟨S1024x2048, .f32⟩
  | .hbm, ⟨3, _⟩ => ⟨S1024, .i32⟩
  | .hbm, ⟨4, _⟩ => ⟨S1024x1, .i32⟩
  | .hbm, ⟨5, _⟩ => ⟨S_, .f32⟩
  | .hbm, ⟨6, _⟩ => ⟨S1024x50257, .f32⟩
  | .hbm, ⟨7, _⟩ => ⟨S_, .i32⟩
  | .hbm, ⟨8, _⟩ => ⟨S1024x1, .i32⟩
  | .hbm, ⟨9, _⟩ => ⟨S1024x1, .i1⟩
  | .hbm, ⟨10, _⟩ => ⟨S_, .i32⟩
  | .hbm, ⟨11, _⟩ => ⟨S1024x1, .i32⟩
  | .hbm, ⟨12, _⟩ => ⟨S1024x1, .i32⟩
  | .hbm, ⟨13, _⟩ => ⟨S1024x1, .i32⟩
  | .hbm, ⟨14, _⟩ => ⟨S_, .i32⟩
  | .hbm, ⟨15, _⟩ => ⟨S1024x2048, .i32⟩
  | .hbm, ⟨16, _⟩ => ⟨S1024x2048, .i1⟩
  | .hbm, ⟨17, _⟩ => ⟨S_, .i32⟩
  | .hbm, ⟨18, _⟩ => ⟨S1024x2048, .i32⟩
  | .hbm, ⟨19, _⟩ => ⟨S1024x2048, .i32⟩
  | .hbm, ⟨20, _⟩ => ⟨S1024x2048, .i32⟩
  | .hbm, ⟨21, _⟩ => ⟨S1024x2048, .i32⟩
  | .hbm, ⟨22, _⟩ => ⟨S1024x2048x1, .i32⟩
  | .hbm, ⟨23, _⟩ => ⟨S1024x2048x1, .i32⟩
  | .hbm, ⟨24, _⟩ => ⟨S1024x2048x2, .i32⟩
  | .hbm, ⟨25, _⟩ => ⟨S1024x50257, .f32⟩
  | _, _ => ⟨S1024x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S_S1024x50257 : S_.BroadcastsInDim S1024x50257 (![] : Fin 0 → Fin S1024x50257.rank)
  bcast_S_S1024x1 : S_.BroadcastsInDim S1024x1 (![] : Fin 0 → Fin S1024x1.rank)
  bcast_S_S1024x2048 : S_.BroadcastsInDim S1024x2048 (![] : Fin 0 → Fin S1024x2048.rank)
  bcast_S1024x1_S1024x2048_0_1 : S1024x1.BroadcastsInDim S1024x2048 (![0, 1] : Fin 2 → Fin S1024x2048.rank)
  bcast_S1024x2048_S1024x2048x1_0_1 : S1024x2048.BroadcastsInDim S1024x2048x1 (![0, 1] : Fin 2 → Fin S1024x2048x1.rank)
  concatenates_S1024x2048x1_S1024x2048x1_S1024x2048x2_d2 : Shape.Concatenates [S1024x2048x1, S1024x2048x1] S1024x2048x2 2
  scatter_S1024x50257_S1024x2048x2_S1024x2048_n_01_01_2_wf : ScatterDims.WF S1024x50257 S1024x2048x2 S1024x2048 [] [0, 1] [0, 1] 2

variable [Facts₀]

def scatter_S1024x50257_S1024x2048x2_S1024x2048_n_01_01_2 : ScatterDims S1024x50257 S1024x2048x2 S1024x2048 where
  updateWindowDims := []
  insertedWindowDims := [0, 1]
  scatterDimsToOperandDims := [0, 1]
  indexVectorDim := 2
  wf := scatter_S1024x50257_S1024x2048x2_S1024x2048_n_01_01_2_wf

class Facts : Prop extends Facts₀ where

variable [Facts]
-- ==== Proof.ColumnCover.lean ====
/-
  The 197 column blocks of one batch tile's counts: 196 blocks of 256 columns and a last block of the remaining
  81 columns (50257 = 196 * 256 + 81) cover every column of the [32, 50257] tile. A list of stores whose rectangles
  are exactly these blocks therefore covers the tile: column `v` lies in block `v / 256`.
-/
import Idealize.ShloMosaic.Lib.Pipeline.FrameBody

noncomputable section

namespace Cert.Count

open Idealize.ShloMosaic

/-- One batch tile of the counts table: 32 documents by 50257 vocabulary entries. -/
abbrev SOutTile : Shape := ⟨2, ![32, 50257]⟩

/-- How many columns block `k` has. -/
abbrev colWidth (k : ℕ) : ℕ := if k < 196 then 256 else 81

theorem colRect_inb (k : Fin 197) (a : Fin SOutTile.rank) :
    (![0, 256 * k.val] : Fin 2 → ℕ) a + (![32, colWidth k.val] : Fin 2 → ℕ) a ≤ SOutTile.size a := by
  have hk := k.isLt
  match a with
  | ⟨0, _⟩ => exact Nat.le_refl 32
  | ⟨1, _⟩ =>
    show 256 * k.val + colWidth k.val ≤ 50257
    unfold colWidth
    split_ifs <;> omega

/-- Column block `k`: all 32 rows, the columns from `256 * k`. -/
def colRect (k : Fin 197) : Rect SOutTile :=
  Rect.unit ![0, 256 * k.val] ![32, colWidth k.val] (colRect_inb k)

/-- The blocks, the last one first (the order in which a run lists its stores: newest first). -/
def colRects : List (Rect SOutTile) := (List.ofFn colRect).reverse

/-- Column `v` of the tile lies in block `v / 256`. -/
theorem mem_colRect (y : SOutTile.Idx) (hk : (y 1).val / 256 < 197) : y ∈ (colRect ⟨(y 1).val / 256, hk⟩).set := by
  unfold colRect
  rw [Rect.mem_set_unit]
  intro a
  have h1 : (y 1).val < 50257 := (y 1).isLt
  match a with
  | ⟨0, _⟩ =>
    have h0 : (y 0).val < 32 := (y 0).isLt
    exact ⟨Nat.zero_le _, by show (y 0).val < 0 + 32; omega⟩
  | ⟨1, _⟩ =>
    show 256 * ((y 1).val / 256) ≤ (y 1).val ∧ (y 1).val < 256 * ((y 1).val / 256) + colWidth ((y 1).val / 256)
    unfold colWidth
    split_ifs <;> omega

/-- Stores through exactly the column blocks cover the tile. -/
theorem cover_of_colRects {Val : EltTy → Type} {e : EltTy} (L : List (View.Piece Val SOutTile e))
    (h : L.map (·.1) = colRects) (y : SOutTile.Idx) : ∃ pc ∈ L, y ∈ pc.1.set := by
  have h1 : (y 1).val < 50257 := (y 1).isLt
  have hk : (y 1).val / 256 < 197 := by omega
  have hm : colRect ⟨(y 1).val / 256, hk⟩ ∈ L.map (·.1) := by
    rw [h]
    exact List.mem_reverse.mpr (List.mem_ofFn.mpr ⟨_, rfl⟩)
  obtain ⟨pc, hpc, he⟩ := List.mem_map.mp hm
  exact ⟨pc, hpc, by rw [he]; exact mem_colRect y hk⟩

end Cert.Count

end
-- ==== Proof.KernelPieces.lean ====
/-
  What one grid point's body leaves behind, as closed terms of its inputs.

  The digit table (the scratch the kernel carries from point to point) after a point is the point's update
  `k0_pay2 x acc` — the table `acc` it found plus the hits of the point's tile of words `x` — where at the first point
  of a batch tile `acc` is the zero table the body has just stored.

  At the last sequence point of a batch tile the body copies the table to the output tile column block by column
  block: block `k` (columns `256 k …`) is row `k` of the high digits. So the output tile at `(p, v)` is the updated
  table at `(p, v / 256, v % 256)`.
-/
import proofs.«409082_j45286135169615_2_alg».proof.Proof.FrameKernelIdeal
import Idealize.ShloMosaic.Lib.Pipeline.Value
import Idealize.ShloMosaic.Lib.ValueIdx

set_option maxRecDepth 16384

noncomputable section

namespace Cert.KernelIdeal.Pieces

open Cert.KernelIdeal Cert.KernelIdeal.Gen Cert.KernelIdeal.GenP
open Idealize.ShloMosaic Idealize.ShloMosaic.TcCoe Idealize.ShloMosaic.Tactic Idealize.ShloMosaic.ValueIdx
open Idealize.SL Idealize.SL.Sem

variable {F : FTy → Type} [FloatOps F]

theorem zero3 : (![0, 0, 0] : Fin 3 → ℕ) = fun _ => 0 :=
  funext fun a => by
    match a with
    | ⟨0, _⟩ => rfl
    | ⟨1, _⟩ => rfl
    | ⟨2, _⟩ => rfl

theorem zero2 : (![0, 0] : Fin 2 → ℕ) = fun _ => 0 :=
  funext fun a => by
    match a with
    | ⟨0, _⟩ => rfl
    | ⟨1, _⟩ => rfl

/-- A middle point of a batch tile leaves the table it found plus its tile's hits. -/
theorem sout_B (c : Dev nD) (i : grid0.Coords) (arg2 : Memref sig .tc .vmem S32x512 .i32) (harg2 : arg2.IsWhole)
    (arg3 : Memref sig .tc .vmem S32x50257 .f32) (harg3 : arg3.IsWhole) (arg4 : Memref sig .tc .vmem S32x200x256 .f32)
    (harg4 : arg4.IsWhole) (hc0 : ¬cond0_0 i) (hc1 : ¬cond0_1 i) (x0 : Vec F S32x512 .i32) (xs0 : Vec F S32x200x256 .f32) :
    sout0_B_0 c i arg2 harg2 arg3 harg3 arg4 harg4 hc0 hc1 x0 xs0 = k0_pay2 x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero zero3]
  simp only [View.readAt_eq_ld, harg2.read_unread, harg4.read_unread, View.ld_unit_zero (S := S32x200x256) zero3,
    View.ld_unit_zero (S := S32x512) zero2]

/-- The last point of a batch tile leaves the same in the table (it then copies it out). -/
theorem sout_C (c : Dev nD) (i : grid0.Coords) (arg2 : Memref sig .tc .vmem S32x512 .i32) (harg2 : arg2.IsWhole)
    (arg3 : Memref sig .tc .vmem S32x50257 .f32) (harg3 : arg3.IsWhole) (arg4 : Memref sig .tc .vmem S32x200x256 .f32)
    (harg4 : arg4.IsWhole) (hc0 : ¬cond0_0 i) (hc1 : cond0_1 i) (x0 : Vec F S32x512 .i32) (xs0 : Vec F S32x200x256 .f32) :
    sout0_C_0 c i arg2 harg2 arg3 harg3 arg4 harg4 hc0 hc1 x0 xs0 = k0_pay2 x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero zero3]
  simp only [View.readAt_eq_ld, harg2.read_unread, harg4.read_unread, View.ld_unit_zero (S := S32x200x256) zero3,
    View.ld_unit_zero (S := S32x512) zero2]

/-- The first point of a batch tile stores the zero table, reads it back and leaves it plus its tile's hits. -/
theorem sout_A (c : Dev nD) (i : grid0.Coords) (arg2 : Memref sig .tc .vmem S32x512 .i32) (harg2 : arg2.IsWhole)
    (arg3 : Memref sig .tc .vmem S32x50257 .f32) (harg3 : arg3.IsWhole) (arg4 : Memref sig .tc .vmem S32x200x256 .f32)
    (harg4 : arg4.IsWhole) (hc0 : cond0_0 i) (hc1 : ¬cond0_1 i) (x0 : Vec F S32x512 .i32) :
    sout0_A_0 c i arg2 harg2 arg3 harg3 arg4 harg4 hc0 hc1 x0 = k0_pay2 x0 (k0_pay1 (F := F)) := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S32x200x256) zero3, View.readCov_unit_zero (S := S32x200x256) _ zero3]
  simp only [View.readAt_eq_ld, harg2.read_unread, View.ld_unit_zero (S := S32x512) zero2]

/-! ## The copy to the output tile -/

/-- The table entry that entry `y` of the output tile is copied from: same document, high digit `v / 256`, low
    digit `v % 256` of the column `v`. -/
def tableIdx (y : S32x50257.Idx) : S32x200x256.Idx :=
  ix3 (⟨(y 0).val, (y 0).isLt⟩ : Fin 32)
    (⟨(y 1).val / 256, by have h : (y 1).val < 50257 := (y 1).isLt; omega⟩ : Fin 200)
    (⟨(y 1).val % 256, Nat.mod_lt _ (by norm_num)⟩ : Fin 256)

/-- A full column block: the 256 columns from `o = 256 k` are stored from row `k` of the table's high digits, read back
    out of the table `w` just stored whole. -/
theorem piece256 (v : View sig .tc .vmem S32x200x256 .f32) (w : Vec F S32x200x256 .f32) (o k : ℕ) (ho : o = 256 * k)
    (inb0 : ∀ a, (![0, 0, 0] : Fin 3 → ℕ) a + S32x200x256.size a ≤ S32x200x256.size a)
    (inbL : ∀ a, (![0, k, 0] : Fin 3 → ℕ) a + S32x1x256.size a ≤ S32x200x256.size a)
    (inbS : ∀ a, (![0, o] : Fin 2 → ℕ) a + (![32, 256] : Fin 2 → ℕ) a ≤ S32x50257.size a)
    (hsc : S32x1x256.ShapeCasts S32x256)
    (x : (Rect.unit (s := S32x50257) ![0, o] ![32, 256] inbS).shape.Idx) :
    shapeCast S32x256 (v.readCov [⟨Rect.unit (s := S32x200x256) ![0, 0, 0] S32x200x256.size inb0, w⟩]
        (Rect.unit (s := S32x200x256) ![0, k, 0] S32x1x256.size inbL).toLoadRect) hsc x
      = w (tableIdx ((Rect.unit (s := S32x50257) ![0, o] ![32, 256] inbS).emb x)) := by
  subst ho
  rw [View.readCov_eq_canon_ld _ _ _ (fun y => ⟨_, List.mem_singleton_self _, View.mem_set_unit_zero zero3 inb0 y⟩),
    View.canon_unit_zero zero3]
  obtain ⟨p, l, rfl⟩ : ∃ (p : Fin 32) (l : Fin 256), x = ix2 p l := ⟨x 0, x 1, eq_ix2 x⟩
  refine (shapeCast_apply _ hsc (ix2 p l) (ix3 p (0 : Fin 1) l) (by
    rw [Shape.rowMajor_val_three, Shape.rowMajor_val_two]
    show (p.val * 1 + 0) * 256 + l.val = p.val * 256 + l.val
    omega)).trans ?_
  show w ((Rect.unit (s := S32x200x256) ![0, k, 0] S32x1x256.size inbL).idx (ix3 p (0 : Fin 1) l)) = _
  congr 1
  funext a
  refine Fin.ext ?_
  have hp := p.isLt
  have hl := l.isLt
  match a with
  | ⟨0, _⟩ => show 0 + 1 * p.val = 0 + 1 * p.val; rfl
  | ⟨1, _⟩ => show k + 1 * 0 = (256 * k + 1 * l.val) / 256; omega
  | ⟨2, _⟩ => show 0 + 1 * l.val = (256 * k + 1 * l.val) % 256; omega

/-- The last column block: the 81 columns from 50176 are stored from the first 81 low digits of row 196. -/
theorem piece81 (v : View sig .tc .vmem S32x200x256 .f32) (w : Vec F S32x200x256 .f32)
    (inb0 : ∀ a, (![0, 0, 0] : Fin 3 → ℕ) a + S32x200x256.size a ≤ S32x200x256.size a)
    (inbL : ∀ a, (![0, 196, 0] : Fin 3 → ℕ) a + S32x1x81.size a ≤ S32x200x256.size a)
    (inbS : ∀ a, (![0, 50176] : Fin 2 → ℕ) a + (![32, 81] : Fin 2 → ℕ) a ≤ S32x50257.size a)
    (hsc : S32x1x81.ShapeCasts S32x81)
    (x : (Rect.unit (s := S32x50257) ![0, 50176] ![32, 81] inbS).shape.Idx) :
    shapeCast S32x81 (v.readCov [⟨Rect.unit (s := S32x200x256) ![0, 0, 0] S32x200x256.size inb0, w⟩]
        (Rect.unit (s := S32x200x256) ![0, 196, 0] S32x1x81.size inbL).toLoadRect) hsc x
      = w (tableIdx ((Rect.unit (s := S32x50257) ![0, 50176] ![32, 81] inbS).emb x)) := by
  rw [View.readCov_eq_canon_ld _ _ _ (fun y => ⟨_, List.mem_singleton_self _, View.mem_set_unit_zero zero3 inb0 y⟩),
    View.canon_unit_zero zero3]
  obtain ⟨p, l, rfl⟩ : ∃ (p : Fin 32) (l : Fin 81), x = ix2 p l := ⟨x 0, x 1, eq_ix2 x⟩
  refine (shapeCast_apply _ hsc (ix2 p l) (ix3 p (0 : Fin 1) l) (by
    rw [Shape.rowMajor_val_three, Shape.rowMajor_val_two]
    show (p.val * 1 + 0) * 81 + l.val = p.val * 81 + l.val
    omega)).trans ?_
  show w ((Rect.unit (s := S32x200x256) ![0, 196, 0] S32x1x81.size inbL).idx (ix3 p (0 : Fin 1) l)) = _
  congr 1
  funext a
  refine Fin.ext ?_
  have hp := p.isLt
  have hl := l.isLt
  match a with
  | ⟨0, _⟩ => show 0 + 1 * p.val = 0 + 1 * p.val; rfl
  | ⟨1, _⟩ => show 196 + 1 * 0 = (50176 + 1 * l.val) / 256; omega
  | ⟨2, _⟩ => show 0 + 1 * l.val = (50176 + 1 * l.val) % 256; omega

/-- The output tile the last point of a batch tile stores is the updated table, entry by entry. -/
theorem out_C (c : Dev nD) (i : grid0.Coords) (arg2 : Memref sig .tc .vmem S32x512 .i32) (harg2 : arg2.IsWhole)
    (arg3 : Memref sig .tc .vmem S32x50257 .f32) (harg3 : arg3.IsWhole) (arg4 : Memref sig .tc .vmem S32x200x256 .f32)
    (harg4 : arg4.IsWhole) (hc0 : ¬cond0_0 i) (hc1 : cond0_1 i) (x0 : Vec F S32x512 .i32) (xs0 : Vec F S32x200x256 .f32)
    (y : S32x50257.Idx) :
    out0_C_1 c i arg2 harg2 arg3 harg3 arg4 harg4 hc0 hc1 x0 xs0 y = k0_pay2 x0 xs0 (tableIdx y) := by
  unfold out0_C_1
  rw [View.read_writes_eq_canon _ _ _ (cover0_C_1 c i arg2 harg2 arg3 harg3 arg4 harg4 hc0 hc1 x0 xs0)]
  have hcov := cover0_C_1 c i arg2 harg2 arg3 harg3 arg4 harg4 hc0 hc1 x0 xs0 y
  revert hcov
  unfold kernelRun0_C
  dsimp only
  sl_unfold_words
  simp only [View.readAt_eq_ld, harg2.read_unread, harg4.read_unread, View.ld_unit_zero (S := S32x200x256) zero3,
    View.ld_unit_zero (S := S32x512) zero2]
  generalize k0_pay2 x0 xs0 = w
  intro hcov
  refine View.canon_apply_of_pieces (fun y => w (tableIdx y)) _ ?_ y hcov
  simp only [List.forall_mem_cons]
  refine ⟨fun x => piece81 _ w _ _ _ _ x, ?_⟩
  repeat' apply And.intro
  all_goals first
    | exact fun x => piece256 _ w _ _ (by norm_num) _ _ _ _ x
    | exact fun pc hpc => absurd hpc List.not_mem_nil

end Cert.KernelIdeal.Pieces

end
-- ==== Proof.Spec.lean ====
/-
  The counting function both programs compute, and the digit arithmetic that joins them.

  For a document `b` and a vocabulary entry `v`, `counts ids mask (b, v)` is the number of positions `s` of the
  document whose mask bit is set and whose token id, read signed, is `v`.

  The kernel never sees the mask: every position that is masked out (or whose id is outside the vocabulary) is first
  routed to the word 51199, which is no vocabulary entry. It then splits a word `w` into a high digit `w >> 8` and a low
  digit `w & 255` and counts, for each pair of digits `(h, l)`, the positions whose two digits are `h` and `l`:
  `hit w h l`. A word has digits `(h, l)` exactly when its signed value is `256 * h + l` (`hit_eq`), so the count at
  digits `(v / 256, v % 256)` is the count of the positions whose routed word is `v`.
-/
import Idealize.ShloMosaic.PureOps.Ideal
import Idealize.ShloMosaic.Lib.ValueIdx

noncomputable section

namespace Cert.Count

open Idealize.ShloMosaic Idealize.ShloMosaic.ValueIdx

/-- Token ids and mask: 1024 documents of 2048 positions. -/
abbrev SIds : Shape := ⟨2, ![1024, 2048]⟩
/-- The counts table: 1024 documents by 50257 vocabulary entries. -/
abbrev SOut : Shape := ⟨2, ![1024, 50257]⟩
/-- One tile of routed words: 32 documents by 512 positions. -/
abbrev STile : Shape := ⟨2, ![32, 512]⟩
/-- The digit table of one batch tile: 32 documents by 200 high digits by 256 low digits. -/
abbrev SDigits : Shape := ⟨3, ![32, 200, 256]⟩

/-- A word has high digit `h` and low digit `l`: one if so, zero if not. -/
def hit (w : BitVec 32) (h l : ℕ) : EReal :=
  if w.sshiftRight 8 = BitVec.ofNat 32 h ∧ w &&& 255#32 = BitVec.ofNat 32 l then 1 else 0

/-- What one tile of words adds to the digit table: at `(p, h, l)` the number of positions of row `p` of the tile whose
    word has digits `(h, l)`. -/
def tileHits (x : STile.Idx → BitVec 32) : SDigits.Idx → EReal :=
  fun j => ∑ s : Fin 512, hit (x (ix2 (j 0) s)) (j 1).val (j 2).val

/-- The routed word: the id where the mask bit is set and the id is a vocabulary entry, 51199 elsewhere. -/
def routed (ids : SIds.Idx → BitVec 32) (mask : SIds.Idx → BitVec 1) : SIds.Idx → BitVec 32 :=
  fun i => if mask i = 1#1 ∧ 0 ≤ (ids i).toInt ∧ (ids i).toInt < 50257 then ids i else 51199#32

/-- The counts: at `(b, v)` the number of positions of document `b` whose mask bit is set and whose id is `v`. -/
def counts (ids : SIds.Idx → BitVec 32) (mask : SIds.Idx → BitVec 1) : SOut.Idx → EReal :=
  fun i => ∑ s : Fin 2048, if mask (ix2 (i 0) s) = 1#1 ∧ (ids (ix2 (i 0) s)).toInt = ((i 1).val : ℤ) then 1 else 0

/-- The same count over the routed words: the positions whose routed word is `v`. -/
def wordCounts (tok : SIds.Idx → BitVec 32) : SOut.Idx → EReal :=
  fun i => ∑ s : Fin 2048, if (tok (ix2 (i 0) s)).toInt = ((i 1).val : ℤ) then 1 else 0

/-- A word has digits `(h, l)`, `l` a proper low digit and `h` below 2^23, exactly when its signed value is
    `256 * h + l`: the arithmetic shift is the floor quotient by 256 and the mask the remainder. -/
theorem hit_eq (w : BitVec 32) (h l : ℕ) (hh : h < 8388608) (hl : l < 256) :
    hit w h l = if w.toInt = ((256 * h + l : ℕ) : ℤ) then 1 else 0 := by
  unfold hit
  refine if_congr ?_ rfl rfl
  have h1 : (w.sshiftRight 8).toInt = w.toInt / 256 := by
    rw [BitVec.toInt_sshiftRight, Int.shiftRight_eq_div_pow]; norm_num
  have h2 : (w &&& 255#32).toNat = w.toNat % 256 := by
    rw [BitVec.toNat_and]
    exact Nat.and_two_pow_sub_one_eq_mod w.toNat 8
  have h3 : (BitVec.ofNat 32 h).toInt = (h : ℤ) := by
    rw [BitVec.toInt_eq_toNat_cond, BitVec.toNat_ofNat, Nat.mod_eq_of_lt (by omega : h < 2 ^ 32)]
    rw [if_pos (by omega)]
  have h4 : (BitVec.ofNat 32 l).toNat = l := by
    rw [BitVec.toNat_ofNat]; omega
  have hw : w.toInt = if 2 * w.toNat < 4294967296 then (w.toNat : ℤ) else (w.toNat : ℤ) - 4294967296 := by
    rw [BitVec.toInt_eq_toNat_cond]; norm_num
  have hlt : w.toNat < 4294967296 := w.isLt
  constructor
  · rintro ⟨ha, hb⟩
    have ha' := congrArg BitVec.toInt ha
    have hb' := congrArg BitVec.toNat hb
    rw [h1, h3] at ha'
    rw [h2, h4] at hb'
    split_ifs at hw <;> omega
  · intro he
    constructor
    · apply BitVec.eq_of_toInt_eq
      rw [h1, h3]
      split_ifs at hw <;> omega
    · apply BitVec.eq_of_toNat_eq
      rw [h2, h4]
      split_ifs at hw <;> omega

end Cert.Count

end
-- ==== Proof.TilePayload.lean ====
/-
  The kernel body's arithmetic, read one element at a time.

  At each grid point the body adds to its table, at digits (p, h, l), the product over the 512 positions s of row p of
  two factors: the indicator that the high digit of the word at (p, s) (the word shifted right by 8, arithmetically)
  is h, and the indicator that its low digit (the word masked by 255) is l. Each indicator is a comparison of a
  broadcast word with a broadcast coordinate, widened to a word 0 or 1 and converted to the real 0 or 1; a product of
  two of them is the indicator of the conjunction, which is `Cert.Count.hit`, and the sum over s is
  `Cert.Count.tileHits`. The table starts as zero, and the copy out of it reads a [32, 1, 256] (or [32, 1, 81]) slab
  as a [32, 256] (or [32, 81]) block, element (p, l) from (p, 0, l).
-/
import proofs.«409082_j45286135169615_2_alg».proof.Proof.Spec
import proofs.«409082_j45286135169615_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-! ## The slabs copied out, and the zero table -/

/-- A [32, 1, 256] slab viewed as a [32, 256] block: both (p, 0, l) and (p, l) sit at row-major position 256 p + l. -/
theorem slab256_apply {F : FTy → Type} [FloatOps F] (v : FVec F Cert.KernelIdeal.S32x1x256 .f32) (p : Fin 32) (l : Fin 256) :
    shapeCast Cert.KernelIdeal.S32x256 v Cert.KernelIdeal.Facts₀.shapeCasts_S32x1x256_S32x256 (ix2 p l) = v (ix3 p 0 l) :=
  shapeCast_apply v _ _ _ (by
    rw [Shape.rowMajor_val_three, Shape.rowMajor_val_two]
    show (p.val * 1 + 0) * 256 + l.val = p.val * 256 + l.val
    omega)

/-- A [32, 1, 81] slab viewed as a [32, 81] block: both (p, 0, l) and (p, l) sit at row-major position 81 p + l. -/
theorem slab81_apply {F : FTy → Type} [FloatOps F] (v : FVec F Cert.KernelIdeal.S32x1x81 .f32) (p : Fin 32) (l : Fin 81) :
    shapeCast Cert.KernelIdeal.S32x81 v Cert.KernelIdeal.Facts₀.shapeCasts_S32x1x81_S32x81 (ix2 p l) = v (ix3 p 0 l) :=
  shapeCast_apply v _ _ _ (by
    rw [Shape.rowMajor_val_three, Shape.rowMajor_val_two]
    show (p.val * 1 + 0) * 81 + l.val = p.val * 81 + l.val
    omega)

/-- The table a first sequence tile starts from is zero everywhere. -/
theorem pay1_apply (j : Cert.KernelIdeal.S32x200x256.Idx) : Cert.KernelIdeal.Gen.k0_pay1 (F := Ideal) j = 0 := by
  unfold k0_pay1
  rw [shapeCast_self]
  show Ideal.ofBits .f32 0x00000000#32 = 0
  exact Ideal.ofBits_zero_f32

/-! ## One indicator -/

/-- Two words compared for equality, the bit widened to a word and converted: one where they are equal, zero where
    they are not. -/
theorem eqBit_apply (u v : BitVec 32) :
    FloatOps.sitofp (F := Ideal) .f32 ((IntOp.cmpi .eq u v).setWidth 32) = if u = v then 1 else 0 := by
  show (((((IntOp.cmpi .eq u v).setWidth 32).toInt : ℤ) : ℝ) : EReal) = _
  by_cases e : u = v
  · rw [if_pos e]
    have heq : (u == v) = true := beq_iff_eq.mpr e
    have : IntOp.cmpi .eq u v = 1#1 := by
      show BitVec.ofBool (u == v) = 1#1
      rw [heq]; rfl
    rw [this]
    norm_num
  · rw [if_neg e]
    have hne : (u == v) = false := beq_eq_false_iff_ne.mpr e
    have : IntOp.cmpi .eq u v = 0#1 := by
      show BitVec.ofBool (u == v) = 0#1
      rw [hne]; rfl
    rw [this]
    norm_num

/-- The indicator of a digit. A [32, 512] table of words, given a trailing unit axis and repeated along a last axis of
    extent n, is compared with that axis's coordinate; the result, converted, reads at (p, s, c) one where the word at
    (p, s) is c and zero elsewhere. -/
theorem onehot_apply {n : Nat} (a : IVec S32x512 32) (hc : S32x512.ShapeCasts S32x512x1)
    (hb : S32x512x1.Broadcasts ⟨3, ![32, 512, n]⟩) (hio : (⟨3, ![1, 1, n]⟩ : Shape).Iotas .tc 32 [2])
    (hb2 : (⟨3, ![1, 1, n]⟩ : Shape).Broadcasts ⟨3, ![32, 512, n]⟩) (h32 : 1 < 32) (hbits : FTy.bits .bf16 < FTy.bits .f32)
    (p : Fin 32) (s : Fin 512) (c : Fin n) :
    truncf (F := Ideal) .bf16 (sitofp .f32 (extui 32 (cmpi .eq
        (broadcastTo ⟨3, ![32, 512, n]⟩ (shapeCast S32x512x1 a hc) hb)
        (broadcastTo ⟨3, ![32, 512, n]⟩ (iota .tc ⟨3, ![1, 1, n]⟩ 32 [2] hio) hb2)) h32)) hbits (ix3 p s c)
      = if a (ix2 p s) = BitVec.ofNat 32 c.val then 1 else 0 := by
  -- the repeated table at (p, s, c) is the table at (p, s): through (p, s, 0), at row-major position 512 p + s
  have hA : broadcastTo ⟨3, ![32, 512, n]⟩ (shapeCast S32x512x1 a hc) hb (ix3 p s c) = a (ix2 p s) := by
    refine (broadcastTo_apply _ hb (ix3 p s c) (ix3 p s (0 : Fin 1)) fun b => ?_).trans ?_
    · match b with
      | ⟨0, _⟩ => rfl
      | ⟨1, _⟩ => rfl
      | ⟨2, _⟩ => rfl
    · refine shapeCast_apply a hc _ _ ?_
      rw [Shape.rowMajor_val_three, Shape.rowMajor_val_two]
      show p.val * 512 + s.val = (p.val * 512 + s.val) * 1 + 0
      omega
  -- the repeated coordinate at (p, s, c) is c (where n is 1, c is 0)
  have hB : broadcastTo ⟨3, ![32, 512, n]⟩ (iota .tc ⟨3, ![1, 1, n]⟩ 32 [2] hio) hb2 (ix3 p s c) = BitVec.ofNat 32 c.val := by
    have hc0 : ∀ _ : n = 1, c.val = 0 := fun hn => by have := c.isLt; omega
    refine (broadcastTo_apply _ hb2 (ix3 p s c) (ix3 (0 : Fin 1) (0 : Fin 1) c) fun b => ?_).trans ?_
    · match b with
      | ⟨0, _⟩ => rfl
      | ⟨1, _⟩ => rfl
      | ⟨2, _⟩ =>
        show c.val = if n = 1 then 0 else c.val
        split_ifs with hn
        · exact hc0 hn
        · rfl
    · exact iota_single_apply .tc _ 32 2 hio _
  show FloatOps.sitofp (F := Ideal) .f32 ((IntOp.cmpi .eq _ _).setWidth 32) = _
  rw [hA, hB]
  exact eqBit_apply _ _

/-! ## The product's indices -/

/-- The product's dimension numbers: batch axis 0 on both sides, axis 1 (the 512 positions) contracted on both. -/
abbrev D := dot_S32x512x200_S32x512x256_S32x200x256_1_1_2_2_0_0

/-- The contraction index of the product is the position within the tile's row. -/
def posEquiv : D.contr.Idx ≃ Fin 512 := contrEquiv1 D 512 (by decide) (by decide)

/-- At result index (p, h, l) and position s the left factor is read at (p, s, h) … -/
theorem lhsIdx_eq (p : Fin 32) (h : Fin 200) (l : Fin 256) (s : Fin 512) :
    D.lhsIdx (ix3 p h l) (posEquiv.symm s) = ix3 p s h := by
  funext a
  match a with
  | ⟨0, _⟩ => rfl
  | ⟨1, _⟩ => rfl
  | ⟨2, _⟩ => rfl

/-- … and the right factor at (p, s, l). -/
theorem rhsIdx_eq (p : Fin 32) (h : Fin 200) (l : Fin 256) (s : Fin 512) :
    D.rhsIdx (ix3 p h l) (posEquiv.symm s) = ix3 p s l := by
  funext a
  match a with
  | ⟨0, _⟩ => rfl
  | ⟨1, _⟩ => rfl
  | ⟨2, _⟩ => rfl

/-! ## The accumulation -/

/-- What the body stores back into the table: at (p, h, l) the table's element plus the number of positions of row p of
    the tile whose word has digits (h, l). -/
theorem pay2_apply (x : Vec Ideal Cert.KernelIdeal.S32x512 .i32) (acc : Vec Ideal Cert.KernelIdeal.S32x200x256 .f32)
    (p : Fin 32) (h : Fin 200) (l : Fin 256) :
    Cert.KernelIdeal.Gen.k0_pay2 (F := Ideal) x acc (ix3 p h l) = acc (ix3 p h l) + Cert.Count.tileHits x (ix3 p h l) := by
  unfold k0_pay2
  rw [shapeCast_self, addf_apply, shapeCast_self]
  refine congrArg (acc (ix3 p h l) + ·) ?_
  -- the product into the zero table is the sum over the contraction index, re-indexed by the position s
  refine (Ideal.matmul_constant_zero_apply D none _ _ (ix3 p h l)).trans ?_
  unfold Count.tileHits
  rw [← Equiv.sum_comp posEquiv.symm]
  refine Finset.sum_congr rfl fun s _ => ?_
  rw [lhsIdx_eq, rhsIdx_eq, onehot_apply, onehot_apply]
  show ((if IntOp.shrsi .vector (x (ix2 p s)) 8#32 = BitVec.ofNat 32 h.val then (1 : EReal) else 0)
      * (if IntOp.andi (x (ix2 p s)) 255#32 = BitVec.ofNat 32 l.val then 1 else 0)) = Count.hit (x (ix2 p s)) h.val l.val
  -- a shift by 8, below the width, is the arithmetic shift; the mask is the bitwise and
  have e1 : IntOp.shrsi .vector (x (ix2 p s)) 8#32 = (x (ix2 p s)).sshiftRight 8 := by
    unfold IntOp.shrsi
    rw [if_pos (by decide)]
    rfl
  have e2 : IntOp.andi (x (ix2 p s)) 255#32 = x (ix2 p s) &&& 255#32 := rfl
  rw [e1, e2]
  unfold Count.hit
  -- a product of two indicators is the indicator of the conjunction
  by_cases c1 : (x (ix2 p s)).sshiftRight 8 = BitVec.ofNat 32 h.val
  · by_cases c2 : x (ix2 p s) &&& 255#32 = BitVec.ofNat 32 l.val
    · rw [if_pos c1, if_pos c2, if_pos ⟨c1, c2⟩, one_mul]
    · rw [if_pos c1, if_neg c2, if_neg (fun hh : _ ∧ _ => c2 hh.2), mul_zero]
  · rw [if_neg c1, if_neg (fun hh : _ ∧ _ => c1 hh.1), zero_mul]

end Cert.KernelIdeal.Payload

end
-- ==== Proof.KernelValue.lean ====
/-
  The idealized kernel's result array, as a function of what its grid points read.

  The digit table after a point is the fold of the points' updates since the batch tile's first point: each point adds
  the hits of its tile of words (`addend`), the first point to the zero table. So after the last of the four sequence
  points of batch tile `q` the table holds, at `(p, h, l)`, the sum over the four tiles of the hits at `(p, h, l)`; that
  point copies the table to the output tile (entry `(p, v)` from `(p, v / 256, v % 256)`), and the pipeline writes the
  tile back to rows `32 q … 32 q + 31` of the counts table. These write-backs cover the table, so it ends holding
  `result`: at `(b, v)` the four tiles' hits at `(b % 32, v / 256, v % 256)` of batch tile `b / 32`.
-/
import proofs.«409082_j45286135169615_2_alg».proof.Proof.ValueKernelIdeal
import proofs.«409082_j45286135169615_2_alg».proof.Proof.KernelPieces
import proofs.«409082_j45286135169615_2_alg».proof.Proof.TilePayload
import proofs.«409082_j45286135169615_2_alg».proof.Proof.Spec

set_option maxRecDepth 16384

noncomputable section

namespace Cert.KernelIdeal.Result

open Cert.KernelIdeal Cert.KernelIdeal.Gen Cert.KernelIdeal.GenP Cert.KernelIdeal.ValueP
open Idealize.ShloMosaic Idealize.ShloMosaic.TcCoe Idealize.ShloMosaic.ValueIdx Idealize.SL.Sem
open Idealize.ShloMosaic.Pipeline (Dat)
open Cert.KernelIdeal.Pieces (tableIdx)

variable (m : (ℓ : Loc nD τ sig) → Buf (Elt Ideal) ℓ) (ρ : Dev nD → PrngReg)

/-- The tile of routed words grid point `t` reads. -/
abbrev tile (c : Dev nD) (t : Fin cfg0.N) : Vec Ideal S32x512 .i32 := iblk m c 0 t

/-- What point `n` adds to the digit table: its tile's hits (nothing past the grid). -/
def addend (c : Dev nD) (n : ℕ) : S32x200x256.Idx → EReal :=
  fun j => if h : n < cfg0.N then Cert.Count.tileHits (tile m c ⟨n, h⟩) j else 0

/-- The first point of a batch tile leaves its tile's hits over the zero table. -/
theorem first_step (c : Dev nD) (n : ℕ) (h : n < cfg0.N) (h0 : n % 4 = 0) (acc : Vec Ideal S32x200x256 .f32)
    (i : S32x200x256.Idx) : scAt0_0 m c n h acc i = 0 + addend m c n i := by
  have h1 : ¬n % 4 = 3 := by omega
  unfold scAt0_0
  rw [dif_pos h0, dif_neg h1]
  refine (congrFun (Cert.KernelIdeal.Pieces.sout_A (F := Ideal) c (grid0.coords ⟨n, h⟩) (ms0_0 ⟨n, h⟩) (hs0_0 ⟨n, h⟩)
    (ms0_1 ⟨n, h⟩) (hs0_1 ⟨n, h⟩) scM0_0 (Memref.isWhole_whole _) ((hcond0_0 ⟨n, h⟩).mpr h0)
    (fun hh => h1 ((hcond0_1 ⟨n, h⟩).mp hh)) (tile m c ⟨n, h⟩)) i).trans ?_
  obtain ⟨p, d, l, rfl⟩ : ∃ (p : Fin 32) (d : Fin 200) (l : Fin 256), i = ix3 p d l := ⟨i 0, i 1, i 2, eq_ix3 i⟩
  rw [Cert.KernelIdeal.Payload.pay2_apply, Cert.KernelIdeal.Payload.pay1_apply]
  unfold addend
  rw [dif_pos h]

/-- Every later point of the batch tile adds its tile's hits to the table it found. -/
theorem next_step (c : Dev nD) (n : ℕ) (h : n < cfg0.N) (h0 : ¬n % 4 = 0) (acc : Vec Ideal S32x200x256 .f32)
    (i : S32x200x256.Idx) : scAt0_0 m c n h acc i = acc i + addend m c n i := by
  obtain ⟨p, d, l, rfl⟩ : ∃ (p : Fin 32) (d : Fin 200) (l : Fin 256), i = ix3 p d l := ⟨i 0, i 1, i 2, eq_ix3 i⟩
  unfold scAt0_0
  rw [dif_neg h0]
  by_cases h1 : n % 4 = 3
  · rw [dif_pos h1]
    refine (congrFun (Cert.KernelIdeal.Pieces.sout_C (F := Ideal) c (grid0.coords ⟨n, h⟩) (ms0_0 ⟨n, h⟩) (hs0_0 ⟨n, h⟩)
      (ms0_1 ⟨n, h⟩) (hs0_1 ⟨n, h⟩) scM0_0 (Memref.isWhole_whole _) (fun hh => h0 ((hcond0_0 ⟨n, h⟩).mp hh))
      ((hcond0_1 ⟨n, h⟩).mpr h1) (tile m c ⟨n, h⟩) acc) (ix3 p d l)).trans ?_
    rw [Cert.KernelIdeal.Payload.pay2_apply]
    unfold addend
    rw [dif_pos h]
  · rw [dif_neg h1]
    refine (congrFun (Cert.KernelIdeal.Pieces.sout_B (F := Ideal) c (grid0.coords ⟨n, h⟩) (ms0_0 ⟨n, h⟩) (hs0_0 ⟨n, h⟩)
      (ms0_1 ⟨n, h⟩) (hs0_1 ⟨n, h⟩) scM0_0 (Memref.isWhole_whole _) (fun hh => h0 ((hcond0_0 ⟨n, h⟩).mp hh))
      (fun hh => h1 ((hcond0_1 ⟨n, h⟩).mp hh)) (tile m c ⟨n, h⟩) acc) (ix3 p d l)).trans ?_
    rw [Cert.KernelIdeal.Payload.pay2_apply]
    unfold addend
    rw [dif_pos h]

/-- The digit table after point `t`: the hits of the batch tile's sequence tiles up to `t`'s. -/
theorem table_after (c : Dev nD) (t : Fin cfg0.N) (i : S32x200x256.Idx) :
    (outsAt0 m c t.val t.isLt).2 i
      = 0 + ∑ s ∈ Finset.range (t.val % 4 + 1), addend m c (4 * (t.val / 4) + s) i := by
  have hN : cfg0.N = 128 := N_0
  rw [soutsAt0_0_eq m c t]
  exact Pipeline.accAt_add_apply (ι := S32x200x256.Idx) (β := EReal)
    (fun n h => scAt0_0 m c n h (VS0_0.read (Elt Ideal) VS0_0.junk)) (scAt0_0 m c) (fun _ => 0) (addend m c)
    (4 * (t.val / 4)) 3
    (fun h i => first_step m c _ h (by omega) _ i)
    (fun n h acc i hb he => next_step m c n h (by omega) acc i)
    (t.val % 4) (by omega) _ i

/-- At the last point of a batch tile the output tile is the table just updated, copied entry by entry. -/
theorem out_tile (c : Dev nD) (t : Fin cfg0.N) (h0 : ¬t.val % 4 = 0) (h3 : t.val % 4 = 3) (y : S32x50257.Idx) :
    (outsAt0 m c t.val t.isLt).1 y = (outsAt0 m c t.val t.isLt).2 (tableIdx y) := by
  rw [outsAt0_C m c t h0 h3]
  dsimp only
  exact (Cert.KernelIdeal.Pieces.out_C (F := Ideal) c (grid0.coords t) (ms0_0 t) (hs0_0 t) (ms0_1 t) (hs0_1 t) scM0_0
      (Memref.isWhole_whole _) (fun hh => h0 ((hcond0_0 t).mp hh)) ((hcond0_1 t).mpr h3) (iblk m c 0 t)
      (outsAt0 m c (t.val - 1) (Nat.lt_of_le_of_lt (Nat.sub_le _ _) t.isLt)).2 y).trans
    (congrFun (Cert.KernelIdeal.Pieces.sout_C (F := Ideal) c (grid0.coords t) (ms0_0 t) (hs0_0 t) (ms0_1 t) (hs0_1 t) scM0_0
      (Memref.isWhole_whole _) (fun hh => h0 ((hcond0_0 t).mp hh)) ((hcond0_1 t).mpr h3) (iblk m c 0 t)
      (outsAt0 m c (t.val - 1) (Nat.lt_of_le_of_lt (Nat.sub_le _ _) t.isLt)).2) (tableIdx y)).symm

/-- The counts table's entry `(b, v)` after the run, from the four sequence tiles of batch tile `b / 32`. -/
def resultAt (c : Dev nD) (b v : ℕ) (hb : b < 1024) (hv : v < 50257) : EReal :=
  0 + ∑ s ∈ Finset.range 4, addend m c (4 * (b / 32) + s)
    (ix3 (⟨b % 32, Nat.mod_lt _ (by norm_num)⟩ : Fin 32) (⟨v / 256, by omega⟩ : Fin 200)
      (⟨v % 256, Nat.mod_lt _ (by norm_num)⟩ : Fin 256))

/-- The counts table after the run. -/
def result (c : Dev nD) : Vec Ideal S1024x50257 .f32 :=
  fun i => resultAt m c (i 0).val (i 1).val (show (i 0).val < 1024 from (i 0).isLt) (show (i 1).val < 50257 from (i 1).isLt)

/-- The output window's index map over the grid: batch tile `t / 4`, the one column block. -/
theorem out_index : ∀ t : Fin cfg0.N, win0_1.index t (0 : Fin 2) = t.val / 4 ∧ win0_1.index t (1 : Fin 2) = 0 :=
  (by decide +kernel : ∀ t : Fin grid0.N, win0_1.index t (0 : Fin 2) = t.val / 4 ∧ win0_1.index t (1 : Fin 2) = 0)

/-- What a flushing point writes back is its rows of `result`. -/
theorem flushed_eq (c : Dev nD) (t : Fin cfg0.N) (hf : (cfg0.win 1).flush t = true) :
    (dats m 0 c).flushed 1 t = ((cfg0.win 1).blk t).view.read (Elt Ideal) (result m c) := by
  have hN : cfg0.N = 128 := N_0
  have h3 : t.val % 4 = 3 := (flush0_1 t).mp hf
  have h0 : ¬t.val % 4 = 0 := by omega
  rw [flushed1 m c t]
  funext y
  show (outsAt0 m c t.val t.isLt).1 y = result m c (((cfg0.win 1).blk t).view.emb y)
  rw [out_tile m c t h0 h3 y, table_after m c t (tableIdx y), h3]
  obtain ⟨i0, i1⟩ := out_index t
  have hy0 : (y 0).val < 32 := (y 0).isLt
  have hy1 : (y 1).val < 50257 := (y 1).isLt
  have e0 : ((((cfg0.win 1).blk t).view.emb y) 0).val = 32 * (t.val / 4) + (y 0).val := by
    show win0_1.index t (0 : Fin 2) * 32 + 1 * (y 0).val = _
    rw [i0]; omega
  have e1 : ((((cfg0.win 1).blk t).view.emb y) 1).val = (y 1).val := by
    show win0_1.index t (1 : Fin 2) * 50257 + 1 * (y 1).val = _
    rw [i1]; omega
  unfold result resultAt
  refine congrArg (fun z => (0 : EReal) + z) (Finset.sum_congr rfl fun s _ => ?_)
  have en : 4 * (t.val / 4) + s = 4 * (((((cfg0.win 1).blk t).view.emb y) 0).val / 32) + s := by rw [e0]; omega
  rw [en]
  congr 1
  unfold tableIdx
  funext a
  refine Fin.ext ?_
  match a with
  | ⟨0, _⟩ => show (y 0).val = ((((cfg0.win 1).blk t).view.emb y) 0).val % 32; rw [e0]; omega
  | ⟨1, _⟩ => show (y 1).val / 256 = ((((cfg0.win 1).blk t).view.emb y) 1).val / 256; rw [e1]
  | ⟨2, _⟩ => show (y 1).val % 256 = ((((cfg0.win 1).blk t).view.emb y) 1).val % 256; rw [e1]

/-- An entry of the counts table is in point `t`'s block iff its row is one of the block's 32 rows. -/
theorem mem_blk (t : Fin cfg0.N) (i : S1024x50257.Idx) :
    i ∈ ((cfg0.win 1).blk t).view.set ↔ ∀ a : Fin 2, win0_1.index t a * S32x50257.size a ≤ (i a).val
      ∧ (i a).val < win0_1.index t a * S32x50257.size a + S32x50257.size a := by
  show i ∈ ((View.whole main_v7).slice (win0_1.rect t)).set ↔ _
  rw [View.set_slice_whole, Rect.mem_set_unit]
  exact Iff.rfl

/-- Every entry is in the block of the last point of its batch tile. -/
theorem covered (c : Dev nD) (i : S1024x50257.Idx) :
    ∃ t : Fin cfg0.N, (cfg0.win 1).flush t = true ∧ i ∈ ((cfg0.win 1).blk t).view.set := by
  have hN : cfg0.N = 128 := N_0
  have hi0 : (i 0).val < 1024 := (i 0).isLt
  have hi1 : (i 1).val < 50257 := (i 1).isLt
  refine ⟨⟨4 * ((i 0).val / 32) + 3, by omega⟩, (flush0_1 _).mpr (by show (4 * ((i 0).val / 32) + 3) % 4 = 3; omega), ?_⟩
  rw [mem_blk]
  obtain ⟨i0, i1⟩ := out_index ⟨4 * ((i 0).val / 32) + 3, by omega⟩
  intro a
  match a with
  | ⟨0, _⟩ =>
    show win0_1.index _ (0 : Fin 2) * 32 ≤ (i 0).val ∧ (i 0).val < win0_1.index _ (0 : Fin 2) * 32 + 32
    rw [i0]
    show (4 * ((i 0).val / 32) + 3) / 4 * 32 ≤ (i 0).val ∧ (i 0).val < (4 * ((i 0).val / 32) + 3) / 4 * 32 + 32
    omega
  | ⟨1, _⟩ =>
    show win0_1.index _ (1 : Fin 2) * 50257 ≤ (i 1).val ∧ (i 1).val < win0_1.index _ (1 : Fin 2) * 50257 + 50257
    rw [i1]
    omega

/-- So the counts table ends holding `result`. -/
theorem final (c : Dev nD) : (dats m 0 c).arrAt 1 cfg0.N = result m c :=
  (dats m 0 c).arrAt_eq_of_cover 1 (result m c) (flushed_eq m c) (covered c)

/-- The run, read: the counts table at `result`, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Result

end
-- ==== Proof.HostPrefix.lean ====
/-
  The words the kernel reads, as the host leaves them.

  Before the kernel starts, the host computes, position by position, whether the mask bit is set and the token id, read
  signed, is at least 0 and below 50257; where all three hold it keeps the id, elsewhere it writes the word 51199. That is
  `Cert.Count.routed` of the ids and the mask. The kernel's first window then reads this array in blocks of 32 rows
  by 512 columns over a grid of 32 by 4 points: the block at point t holds rows 32 (t / 4) … and columns 512 (t % 4) ….
-/
import proofs.«409082_j45286135169615_2_alg».proof.Proof.Spec
import proofs.«409082_j45286135169615_2_alg».proof.Proof.Gen.KernelIdeal.Frame.Runs
import Idealize.ShloMosaic.Lib.StableHlo.Run
import Idealize.ShloMosaic.Lib.ValueIdx

noncomputable section

namespace Cert.KernelIdeal.Host

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The routed words -/

/-- The host's operations before the kernel, composed: a select, on the conjunction of the mask with the two signed
    comparisons of the ids against the constants 0 and 50257, between the ids and the constant 51199. -/
theorem tok_term (c : Dev nD) : (V m c main_v6 : S1024x2048.Idx → BitVec 32) =
    select
      (andi
        (andi (m ((c : Thread nD τ).loc main_arg1) : S1024x2048.Idx → BitVec 1)
          (cmpi .sge (m ((c : Thread nD τ).loc main_arg0) : S1024x2048.Idx → BitVec 32)
            (broadcastInDim S1024x2048 ![] bcast_S_S1024x2048 (constantI S_ 32 0#32))))
        (cmpi .slt (m ((c : Thread nD τ).loc main_arg0) : S1024x2048.Idx → BitVec 32)
          (broadcastInDim S1024x2048 ![] bcast_S_S1024x2048 (constantI S_ 32 50257#32))))
      (m ((c : Thread nD τ).loc main_arg0) : S1024x2048.Idx → BitVec 32)
      (broadcastInDim S1024x2048 ![] bcast_S_S1024x2048 (constantI S_ 32 51199#32)) := by
  dsimp only [Gen.V]
  simp only [Gen.hostOps0, Gen.hostOps0_1, List.flatten_cons, List.flatten_nil, List.append_nil, List.cons_append, List.nil_append]
  after_results
  rfl

/-- The array the kernel's first window reads is the routed words: the id where the mask bit is set and the id is a
    vocabulary entry, 51199 elsewhere. -/
theorem tok_eq (c : Dev nD) : (V m c main_v6 : S1024x2048.Idx → BitVec 32)
    = Cert.Count.routed (m ((c : Thread nD τ).loc main_arg0)) (m ((c : Thread nD τ).loc main_arg1)) := by
  rw [tok_term]
  funext i
  -- at a position: the select on a one-bit word, each broadcast constant read as the constant
  show Scalar.select (IntOp.andi (IntOp.andi (m ((c : Thread nD τ).loc main_arg1) i)
      (IntOp.cmpi .sge (m ((c : Thread nD τ).loc main_arg0) i) 0#32))
      (IntOp.cmpi .slt (m ((c : Thread nD τ).loc main_arg0) i) 50257#32))
      (m ((c : Thread nD τ).loc main_arg0) i) 51199#32 = _
  unfold Cert.Count.routed Scalar.select
  refine if_congr ?_ rfl rfl
  -- a one-bit and is the conjunction; the signed comparisons are the inequalities of the signed values
  show IntOp.andi _ _ = 1#1 ↔ _
  have h0 : (0#32 : BitVec 32).toInt = 0 := by decide
  have h1 : (50257#32 : BitVec 32).toInt = 50257 := by decide
  rw [IntOp.andi_eq_one, IntOp.andi_eq_one, IntOp.cmpi_sge, IntOp.cmpi_slt, and_assoc, h0, h1]

/-! ## The first window's blocks -/

/-- The first window's index map over the grid of 32 by 4 points, in row-major order: point t is at (t / 4, t % 4). -/
theorem index0 : ∀ t : Fin grid0.N, win0_0.index t (0 : Fin 2) = t.val / 4 ∧ win0_0.index t (1 : Fin 2) = t.val % 4 := by
  decide +kernel

/-- The first window's block at point t, read at (p, s), is the routed-words array at row 32 (t / 4) + p and column
    512 (t % 4) + s. -/
theorem iblk_apply (c : Dev nD) (t : Fin cfg0.N) (p : Fin 32) (s : Fin 512) :
    (iblk m c 0 t : S32x512.Idx → BitVec 32) (ix2 p s)
      = V m c main_v6 (ix2 (⟨32 * (t.val / 4) + p.val, by have := t.isLt; have hN : cfg0.N = 128 := N_0; omega⟩ : Fin 1024)
          (⟨512 * (t.val % 4) + s.val, by omega⟩ : Fin 2048)) := by
  have hi := index0 t
  unfold iblk
  rw [View.read_apply]
  refine congrArg (V m c main_v6 : S1024x2048.Idx → BitVec 32) ?_
  funext a
  apply Fin.ext
  -- a block's coordinate in the array is the block index times the block's extent plus the coordinate inside the block
  match a with
  | ⟨0, _⟩ =>
    show win0_0.index t 0 * 32 + 1 * p.val = 32 * (t.val / 4) + p.val
    rw [hi.1]; omega
  | ⟨1, _⟩ =>
    show win0_0.index t 1 * 512 + 1 * s.val = 512 * (t.val % 4) + s.val
    rw [hi.2]; omega

end Cert.KernelIdeal.Host

end
-- ==== Proof.CountMath.lean ====
/-
  The two counting identities that join the kernel's digit tables to the reference's scatter.

  `sum_four_tiles`: a sum over the 2048 positions of a document is the sum, over the four sequence tiles, of the sums over
  each tile's 512 positions (position `512 k + s` is position `s` of tile `k`).

  `wordCounts_routed`: counting the positions whose ROUTED word is the vocabulary entry `v` counts the positions whose
  mask bit is set and whose id is `v`: a position that is routed away carries the word 51199, which is no
  vocabulary entry (v < 50257), and a position that is kept carries its own id.
-/
import proofs.«409082_j45286135169615_2_alg».proof.Proof.Spec
import Mathlib.Algebra.BigOperators.Intervals
import Mathlib.Algebra.BigOperators.Fin

noncomputable section

namespace Cert.Count

open Idealize.ShloMosaic Idealize.ShloMosaic.ValueIdx

/-- A sum over 2048 positions, tile by tile. -/
theorem sum_four_tiles (f : ℕ → EReal) :
    (∑ k ∈ Finset.range 4, ∑ s : Fin 512, f (512 * k + s.val)) = ∑ s : Fin 2048, f s.val := by
  have h512 : ∀ g : ℕ → EReal, (∑ s : Fin 512, g s.val) = ∑ s ∈ Finset.range 512, g s := fun g =>
    Fin.sum_univ_eq_sum_range g 512
  have h4 : ∀ g : ℕ → EReal, (∑ k ∈ Finset.range 4, g k) = g 0 + g 1 + g 2 + g 3 := fun g => by
    simp only [Finset.sum_range_succ, Finset.sum_range_zero, zero_add]
  rw [Fin.sum_univ_eq_sum_range f 2048]
  rw [show (2048 : ℕ) = 512 + 512 + 512 + 512 from rfl, Finset.sum_range_add, Finset.sum_range_add, Finset.sum_range_add]
  rw [h4, h512 (fun s => f (512 * 0 + s)), h512 (fun s => f (512 * 1 + s)), h512 (fun s => f (512 * 2 + s)),
    h512 (fun s => f (512 * 3 + s))]
  simp only [Nat.mul_zero, Nat.zero_add, Nat.mul_one]

/-- The routed word is the vocabulary entry `v` exactly when the position is masked in and its id is `v`. -/
theorem routed_toInt_eq (ids : SIds.Idx → BitVec 32) (mask : SIds.Idx → BitVec 1) (i : SIds.Idx) (v : ℕ)
    (hv : v < 50257) :
    (routed ids mask i).toInt = (v : ℤ) ↔ (mask i = 1#1 ∧ (ids i).toInt = (v : ℤ)) := by
  unfold routed
  split_ifs with h
  · exact ⟨fun e => ⟨h.1, e⟩, fun e => e.2⟩
  · have h51 : (51199#32 : BitVec 32).toInt = 51199 := by decide
    rw [h51]
    constructor
    · intro e; omega
    · rintro ⟨hm, e⟩
      exact absurd ⟨hm, by omega, by omega⟩ h

/-- Counting routed words counts masked-in ids. -/
theorem wordCounts_routed (ids : SIds.Idx → BitVec 32) (mask : SIds.Idx → BitVec 1) :
    wordCounts (routed ids mask) = counts ids mask := by
  funext i
  unfold wordCounts counts
  refine Finset.sum_congr rfl fun s _ => ?_
  have hv : (i 1).val < 50257 := (i 1).isLt
  exact if_congr (routed_toInt_eq ids mask (ix2 (i 0) s) (i 1).val hv) rfl rfl

end Cert.Count

end
-- ==== Proof.KernelCounts.lean ====
/-
  The idealized kernel's result is the counting function.

  The four tiles' hits at `(b % 32, v / 256, v % 256)` are, position by position, the indicator that the routed word of
  document `b` at position `512 k + s` has digits `(v / 256, v % 256)`, that is, that its signed value is
  `256 (v / 256) + v % 256 = v`. Summed over the four tiles and their 512 positions this is the number of positions of
  the document whose routed word is `v`; and since `v` is a vocabulary entry that is the number of masked-in positions
  whose id is `v`.
-/
import proofs.«409082_j45286135169615_2_alg».proof.Proof.KernelValue
import proofs.«409082_j45286135169615_2_alg».proof.Proof.HostPrefix
import proofs.«409082_j45286135169615_2_alg».proof.Proof.CountMath

noncomputable section

namespace Cert.KernelIdeal.Result

open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ)

/-- The routed words as the region finds them. -/
abbrev words (c : Dev nD) : S1024x2048.Idx → BitVec 32 := V m c main_v6

/-- What sequence tile `k` of batch tile `q` adds at `(p, d, l)`: the positions `512 k + s` of document `32 q + p`
    whose routed word has digits `(d, l)`. -/
theorem addend_apply (c : Dev nD) (q k : ℕ) (hq : q < 32) (hk : k < 4) (p : Fin 32) (d : Fin 200) (l : Fin 256) :
    addend m c (4 * q + k) (ix3 p d l)
      = ∑ s : Fin 512, Cert.Count.hit (words m c (ix2 (⟨32 * q + p.val, by omega⟩ : Fin 1024)
          (⟨512 * k + s.val, by omega⟩ : Fin 2048))) d.val l.val := by
  have hN : cfg0.N = 128 := N_0
  unfold addend
  rw [dif_pos (by omega : 4 * q + k < cfg0.N)]
  unfold Cert.Count.tileHits
  refine Finset.sum_congr rfl fun s _ => ?_
  show Cert.Count.hit (tile m c ⟨4 * q + k, by omega⟩ (ix2 p s)) d.val l.val = _
  rw [show tile m c ⟨4 * q + k, by omega⟩ (ix2 p s) = _ from Cert.KernelIdeal.Host.iblk_apply m c ⟨4 * q + k, by omega⟩ p s]
  congr 2
  funext a
  refine Fin.ext ?_
  match a with
  | ⟨0, _⟩ => show 32 * ((4 * q + k) / 4) + p.val = 32 * q + p.val; omega
  | ⟨1, _⟩ => show 512 * ((4 * q + k) % 4) + s.val = 512 * k + s.val; omega

/-- The counts table after the run is the counting function of the arguments. -/
theorem result_eq (c : Dev nD) :
    result m c = Cert.Count.counts (m ((c : Thread nD τ).loc main_arg0)) (m ((c : Thread nD τ).loc main_arg1)) := by
  rw [← Cert.Count.wordCounts_routed, ← Cert.KernelIdeal.Host.tok_eq m c]
  funext i
  have hb : (i 0).val < 1024 := (i 0).isLt
  have hv : (i 1).val < 50257 := (i 1).isLt
  unfold result resultAt Cert.Count.wordCounts
  rw [zero_add]
  let f : ℕ → EReal := fun s' => if h : s' < 2048 then
    (if (words m c (ix2 (i 0) (⟨s', h⟩ : Fin 2048))).toInt = ((i 1).val : ℤ) then (1 : EReal) else 0) else 0
  have hR : (∑ s : Fin 2048, if (words m c (ix2 (i 0) s)).toInt = ((i 1).val : ℤ) then (1 : EReal) else 0)
      = ∑ s : Fin 2048, f s.val :=
    Finset.sum_congr rfl fun s _ => by
      show _ = dite (s.val < 2048) _ _
      rw [dif_pos s.isLt]
  refine Eq.trans ?_ ((Cert.Count.sum_four_tiles f).trans hR.symm)
  refine Finset.sum_congr rfl fun k hk => ?_
  have hk4 : k < 4 := Finset.mem_range.mp hk
  rw [addend_apply m c ((i 0).val / 32) k (by omega) hk4]
  refine Finset.sum_congr rfl fun s _ => ?_
  have hs : s.val < 512 := s.isLt
  rw [Cert.Count.hit_eq _ _ _ (by show (i 1).val / 256 < 8388608; omega) (Nat.mod_lt _ (by norm_num))]
  show _ = dite (512 * k + s.val < 2048) _ _
  rw [dif_pos (by omega : 512 * k + s.val < 2048)]
  have e1 : 256 * ((i 1).val / 256) + (i 1).val % 256 = (i 1).val := Nat.div_add_mod _ _
  have e2 : (ix2 (⟨32 * ((i 0).val / 32) + (i 0).val % 32, by omega⟩ : Fin 1024) (⟨512 * k + s.val, by omega⟩ : Fin 2048)
      : S1024x2048.Idx) = ix2 (i 0) (⟨512 * k + s.val, by omega⟩ : Fin 2048) := by
    funext a
    refine Fin.ext ?_
    match a with
    | ⟨0, _⟩ => show 32 * ((i 0).val / 32) + (i 0).val % 32 = (i 0).val; omega
    | ⟨1, _⟩ => rfl
  show (if (words m c (ix2 (⟨32 * ((i 0).val / 32) + (i 0).val % 32, by omega⟩ : Fin 1024) (⟨512 * k + s.val, by omega⟩ : Fin 2048))).toInt
      = ((256 * ((i 1).val / 256) + (i 1).val % 256 : ℕ) : ℤ) then (1 : EReal) else 0) = _
  rw [e1, e2]
  rfl

end Cert.KernelIdeal.Result

end
-- ==== Proof.LibScatterPair.lean ====
/-
  The host's accumulating float scatter (at the ideal instance, `Ideal.hostScatterAdd`) read at an element, at
  generic extents, for the layout a two-coordinate `.at[rows, cols].add` prints: an [A, B] array of scalar
  updates scattered onto a [C, D] operand, update `(a, b)` going to the operand element whose two coordinates are
  the PAIR of 32-bit words `(a, b, 0)` and `(a, b, 1)` of an [A, B, 2] index array (no update window axis, both
  operand axes inserted, both named by the index vector, whose axis is the last one).

  `scatterAdd_pair` — element `(c, e)` of the result is the operand's plus the sum over the updates `(a, b)` whose
  two index words, read signed, are `c` and `e`. An update whose pair, read signed, is no element of the operand is
  dropped.
-/
import Idealize.ShloMosaic.PureOps.Ideal
import Idealize.ShloMosaic.Lib.ValueIdx

noncomputable section

namespace Cert.ScatterPair

open Idealize.ShloMosaic Idealize.ShloMosaic.ValueIdx

section Pair
variable {A B C D : ℕ}
  (wf : ScatterDims.WF (⟨2, ![C, D]⟩ : Shape) (⟨3, ![A, B, 2]⟩ : Shape) (⟨2, ![A, B]⟩ : Shape) [] [0, 1] [0, 1] 2)

/-- The pair scatter's dimension numbers: the updates have no window axis; both operand axes are inserted, and the
    index vector (the last axis of the index array) names axis 0 with its first word and axis 1 with its second. -/
abbrev pairDims : ScatterDims (⟨2, ![C, D]⟩ : Shape) (⟨3, ![A, B, 2]⟩ : Shape) (⟨2, ![A, B]⟩ : Shape) :=
  ⟨[], [0, 1], [0, 1], 2, wf⟩

/-- On operand axis 0 the window of update `j` starts at the first word of its pair, read signed. -/
theorem pair_start0 (j : (⟨2, ![A, B]⟩ : Shape).Idx) (idx : IVec (⟨3, ![A, B, 2]⟩ : Shape) 32) :
    (pairDims wf).start j idx 0 = (idx (ix3 (j 0) (j 1) (0 : Fin 2))).toInt := by
  unfold ScatterDims.start
  rw [dif_pos (show (0 : Fin 2) ∈ ([0, 1] : List (Fin 2)) by decide)]
  congr 2
  funext b
  refine Fin.ext ?_
  match b with
  | ⟨0, _⟩ => rfl
  | ⟨1, _⟩ => rfl
  | ⟨2, _⟩ => rfl

/-- On operand axis 1 the window of update `j` starts at the second word of its pair, read signed. -/
theorem pair_start1 (j : (⟨2, ![A, B]⟩ : Shape).Idx) (idx : IVec (⟨3, ![A, B, 2]⟩ : Shape) 32) :
    (pairDims wf).start j idx 1 = (idx (ix3 (j 0) (j 1) (1 : Fin 2))).toInt := by
  unfold ScatterDims.start
  rw [dif_pos (show (1 : Fin 2) ∈ ([0, 1] : List (Fin 2)) by decide)]
  congr 2
  funext b
  refine Fin.ext ?_
  match b with
  | ⟨0, _⟩ => rfl
  | ⟨1, _⟩ => rfl
  | ⟨2, _⟩ => rfl

/-- Both operand axes are inserted: no window coordinate on either. -/
theorem pair_window (j : (⟨2, ![A, B]⟩ : Shape).Idx) (a : Fin 2) : (pairDims wf).window j a = 0 := by
  unfold ScatterDims.window
  exact dif_neg (show a ∉ (List.finRange 2).filter (· ∉ ([0, 1] : List (Fin 2))) by revert a; decide)

/-- An update lands on element `(c, e)` exactly when the two words of its pair, read signed, are `c` and `e`: the
    range conditions then hold because `c` is a row and `e` a column of the operand. -/
theorem pair_resultIdx_iff (j : (⟨2, ![A, B]⟩ : Shape).Idx) (idx : IVec (⟨3, ![A, B, 2]⟩ : Shape) 32)
    (c : Fin C) (e : Fin D) :
    (pairDims wf).resultIdx? j idx = some (ix2 c e)
      ↔ (idx (ix3 (j 0) (j 1) (0 : Fin 2))).toInt = (c.val : ℤ)
        ∧ (idx (ix3 (j 0) (j 1) (1 : Fin 2))).toInt = (e.val : ℤ) := by
  have hs0 := pair_start0 wf j idx
  have hs1 := pair_start1 wf j idx
  have hw0 := pair_window wf j 0
  have hw1 := pair_window wf j 1
  have hc : c.val < C := c.isLt
  have he : e.val < D := e.isLt
  unfold ScatterDims.resultIdx?
  split
  · rename_i h
    rw [Option.some.injEq]
    constructor
    · intro hf
      have h0 : ((pairDims wf).start j idx 0 + ((pairDims wf).window j 0 : ℕ)).toNat = c.val :=
        congrArg Fin.val (congrFun hf 0)
      have h1 : ((pairDims wf).start j idx 1 + ((pairDims wf).window j 1 : ℕ)).toNat = e.val :=
        congrArg Fin.val (congrFun hf 1)
      have hh0 : 0 ≤ (pairDims wf).start j idx 0 + ((pairDims wf).window j 0 : ℕ) := (h 0).1
      have hh1 : 0 ≤ (pairDims wf).start j idx 1 + ((pairDims wf).window j 1 : ℕ) := (h 1).1
      rw [hs0, hw0] at h0 hh0
      rw [hs1, hw1] at h1 hh1
      omega
    · intro ⟨h0, h1⟩
      funext a
      refine Fin.ext ?_
      match a with
      | ⟨0, _⟩ =>
        show ((pairDims wf).start j idx 0 + ((pairDims wf).window j 0 : ℕ)).toNat = c.val
        rw [hs0, hw0]
        omega
      | ⟨1, _⟩ =>
        show ((pairDims wf).start j idx 1 + ((pairDims wf).window j 1 : ℕ)).toNat = e.val
        rw [hs1, hw1]
        omega
  · rename_i h
    constructor
    · intro hf
      exact absurd hf (by simp)
    · intro ⟨h0, h1⟩
      exfalso
      apply h
      intro a
      match a with
      | ⟨0, _⟩ =>
        show 0 ≤ (pairDims wf).start j idx 0 + ((pairDims wf).window j 0 : ℕ)
          ∧ (pairDims wf).start j idx 0 + ((pairDims wf).window j 0 : ℕ) < (C : ℤ)
        rw [hs0, hw0]
        omega
      | ⟨1, _⟩ =>
        show 0 ≤ (pairDims wf).start j idx 1 + ((pairDims wf).window j 1 : ℕ)
          ∧ (pairDims wf).start j idx 1 + ((pairDims wf).window j 1 : ℕ) < (D : ℤ)
        rw [hs1, hw1]
        omega

end Pair

/-- Scalar updates addressed by a pair of index words: update `(a, b)` lands on operand element
    `(idx (a, b, 0), idx (a, b, 1))`, both words read signed; so element `(c, e)` of the result is the operand's plus
    the sum of the updates whose pair is `(c, e)`. -/
theorem scatterAdd_pair {A B C D : ℕ}
    (d : ScatterDims (⟨2, ![C, D]⟩ : Shape) (⟨3, ![A, B, 2]⟩ : Shape) (⟨2, ![A, B]⟩ : Shape))
    (huw : d.updateWindowDims = []) (hiw : d.insertedWindowDims = [0, 1])
    (hsd : d.scatterDimsToOperandDims = [0, 1]) (hiv : d.indexVectorDim = 2)
    (x : (⟨2, ![C, D]⟩ : Shape).Idx → EReal) (idx : IVec (⟨3, ![A, B, 2]⟩ : Shape) 32)
    (upd : (⟨2, ![A, B]⟩ : Shape).Idx → EReal) (c : Fin C) (e : Fin D) :
    Ideal.hostScatterAdd d x idx upd (ix2 c e)
      = x (ix2 c e) + ∑ a : Fin A, ∑ b : Fin B,
          if (idx (ix3 a b (0 : Fin 2))).toInt = (c.val : ℤ) ∧ (idx (ix3 a b (1 : Fin 2))).toInt = (e.val : ℤ)
          then upd (ix2 a b) else 0 := by
  obtain ⟨uw, iw, sd, iv, wf⟩ := d
  dsimp only at huw hiw hsd hiv
  subst huw hiw hsd hiv
  unfold Ideal.hostScatterAdd
  congr 1
  rw [Finset.sum_filter, sum_idx2]
  refine Finset.sum_congr rfl fun a _ => Finset.sum_congr rfl fun b _ => ?_
  exact if_congr (pair_resultIdx_iff wf (ix2 a b) idx c e) rfl rfl

end Cert.ScatterPair

end
-- ==== Proof.RefValue.lean ====
/-
  The reference's result is the counting function.

  The reference adds, onto a zero table, the mask bit of every position `(a, s)` (as the number 0 or 1) at the table
  element named by a pair of 32-bit words: a row word and an id word, laid side by side by a concatenation along a
  last axis of extent 2. The row word is the document number `a`: the program would add 1024 to a negative one, and
  none is. The id word is the token id: the program would add the vocabulary size to a negative one, and none is, by
  the hypothesis that no id is negative. So the sum the scatter forms at `(b, v)`, over all positions whose pair is
  `(b, v)`, is the number of positions of document `b` whose mask bit is set and whose id is `v`.
-/
import proofs.«409082_j45286135169615_2_alg».proof.Proof.Spec
import proofs.«409082_j45286135169615_2_alg».proof.Proof.LibScatterPair
import proofs.«409082_j45286135169615_2_alg».proof.Proof.Gen.ReferenceIdeal.Read
import Idealize.ShloMosaic.Lib.StableHlo.Predicate
import Idealize.ShloMosaic.Lib.Affine
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The first word of the pair at position `(a, s)` is the first piece of the concatenation at `(a, s, 0)`. -/
theorem pair_fst (ids : (⟨S1024x2048, .i32⟩ : BufTy).Contents (Elt Ideal)) (a : Fin 1024) (s : Fin 2048) :
    val_main_v17 (F := Ideal) ids (ix3 a s (0 : Fin 2)) = val_main_v15 (F := Ideal) (ix3 a s (0 : Fin 1)) := by
  unfold val_main_v17
  exact concatenate_pair_apply_left (t := S1024x2048x2) (s₁ := S1024x2048x1) (s₂ := S1024x2048x1) 2
    (val_main_v15 (F := Ideal)) (val_main_v16 (F := Ideal) ids) _ (ix3 a s (0 : Fin 2)) rfl (ix3 a s (0 : Fin 1))
    (fun b => match b with | ⟨0, _⟩ => rfl | ⟨1, _⟩ => rfl | ⟨2, _⟩ => rfl)

/-- The second word of the pair at position `(a, s)` is the second piece of the concatenation at `(a, s, 0)`: the
    first piece is one entry wide on the joined axis. -/
theorem pair_snd (ids : (⟨S1024x2048, .i32⟩ : BufTy).Contents (Elt Ideal)) (a : Fin 1024) (s : Fin 2048) :
    val_main_v17 (F := Ideal) ids (ix3 a s (1 : Fin 2)) = val_main_v16 (F := Ideal) ids (ix3 a s (0 : Fin 1)) := by
  unfold val_main_v17
  exact concatenate_pair_apply_right (t := S1024x2048x2) (s₁ := S1024x2048x1) (s₂ := S1024x2048x1) 2
    (val_main_v15 (F := Ideal)) (val_main_v16 (F := Ideal) ids) _ (ix3 a s (1 : Fin 2)) rfl rfl (ix3 a s (0 : Fin 1))
    (fun b hb => match b, hb with
      | ⟨0, _⟩, _ => rfl
      | ⟨1, _⟩, _ => rfl
      | ⟨2, _⟩, hb => absurd rfl hb) rfl

/-- The row word of position `(a, s)`: the document number `a` as a 32-bit word. The program tests the iota for a
    negative value and would then add 1024; a document number is below 1024, so the test fails and the iota stays. -/
theorem row_word (a : Fin 1024) (s : Fin 2048) :
    val_main_v15 (F := Ideal) (ix3 a s (0 : Fin 1)) = BitVec.ofNat 32 a.val := by
  rw [val_main_v15_apply, val_main_v14_apply, val_main_v8_apply, val_main_v5_apply, val_main_v2_apply, val_main_v4_apply,
    val_main_v1_apply, val_main_c_apply]
  show Scalar.select (IntOp.cmpi .slt (BitVec.ofNat 32 a.val) 0#32) _ (BitVec.ofNat 32 a.val) = _
  have ha : (BitVec.ofNat 32 a.val).toInt = (a.val : ℤ) :=
    StableHlo.Predicate.toInt_ofNat_small a.val (by have := a.isLt; omega)
  have h0 : IntOp.cmpi .slt (BitVec.ofNat 32 a.val) 0#32 = 0#1 :=
    eq_zero_of_ne_one fun h1 => by
      have h2 := IntOp.cmpi_slt.1 h1
      rw [ha, show (0#32 : BitVec 32).toInt = 0 from rfl] at h2
      omega
  rw [h0, select_zero]

/-- The row word read signed is the document number. -/
theorem row_word_toInt (a : Fin 1024) (s : Fin 2048) :
    (val_main_v15 (F := Ideal) (ix3 a s (0 : Fin 1))).toInt = (a.val : ℤ) := by
  rw [row_word]
  exact StableHlo.Predicate.toInt_ofNat_small a.val (by have := a.isLt; omega)

/-- The id word of position `(a, s)`: the token id itself. The program tests the id for a negative value and would
    then add the vocabulary size; no id is negative, so the test fails and the id stays. -/
theorem id_word (ids : (⟨S1024x2048, .i32⟩ : BufTy).Contents (Elt Ideal)) (hnn : ∀ i, 0 ≤ (ids i).toInt)
    (a : Fin 1024) (s : Fin 2048) :
    val_main_v16 (F := Ideal) ids (ix3 a s (0 : Fin 1)) = ids (ix2 a s) := by
  rw [val_main_v16_apply, val_main_v13_apply, val_main_v10_apply, val_main_v9_apply, val_main_c_1_apply]
  have hi : idx_main_v16 (ix3 a s (0 : Fin 1)) = ix2 a s := by
    funext d
    match d with
    | ⟨0, _⟩ => rfl
    | ⟨1, _⟩ => rfl
  rw [hi]
  have h0 : IntOp.cmpi .slt (ids (ix2 a s)) 0#32 = 0#1 :=
    eq_zero_of_ne_one fun h1 => by
      have h2 := IntOp.cmpi_slt.1 h1
      rw [show (0#32 : BitVec 32).toInt = 0 from rfl] at h2
      have := hnn (ix2 a s)
      omega
  rw [h0, select_zero]

/-- The update at a position is its mask bit as a number: one where the bit is set, zero where it is not. -/
theorem weight (mask : (⟨S1024x2048, .i1⟩ : BufTy).Contents (Elt Ideal)) (i : S1024x2048.Idx) :
    val_main_v0 (F := Ideal) mask i = if mask i = 1#1 then 1 else 0 := by
  rw [val_main_v0_apply]
  show (((mask i).toNat : ℝ) : EReal) = _
  rcases BitVec.eq_zero_or_eq_one (mask i) with h | h
  · rw [h, if_neg (by decide)]; simp
  · rw [h, if_pos rfl]; simp

/-- The operand the updates are added to is zero everywhere. -/
theorem operand_zero (i : S1024x50257.Idx) : val_main_v3 (F := Ideal) i = 0 := by
  rw [val_main_v3_apply, val_main_cst_apply]
  exact Ideal.ofBits_zero_f32

/-- The reference computes the counts: at `(b, v)` the scatter adds, onto zero, the mask weight of every position
    `(a, s)` whose pair of index words is `(b, v)`; the row word is `a` and the id word the id, so only document `b`
    contributes, one for each of its positions whose mask bit is set and whose id is `v`. -/
theorem ref_counts (ids : (⟨Cert.ReferenceIdeal.S1024x2048, .i32⟩ : BufTy).Contents (Elt Ideal))
    (mask : (⟨Cert.ReferenceIdeal.S1024x2048, .i1⟩ : BufTy).Contents (Elt Ideal)) (hnn : ∀ i, 0 ≤ (ids i).toInt) :
    Cert.ReferenceIdeal.Read.val_main_v18 (F := Ideal) ids mask = Cert.Count.counts ids mask := by
  funext i
  obtain ⟨b, v, rfl⟩ : ∃ (b : Fin 1024) (v : Fin 50257), i = ix2 b v := ⟨i 0, i 1, eq_ix2 i⟩
  unfold val_main_v18 Host.scatterAdd
  rw [Ideal.hostScatterAdd_def]
  refine (Cert.ScatterPair.scatterAdd_pair _ rfl rfl rfl rfl _ _ _ b v).trans ?_
  rw [operand_zero, zero_add]
  show _ = ∑ s : Fin 2048,
    if mask (ix2 b s) = 1#1 ∧ (ids (ix2 b s)).toInt = (v.val : ℤ) then (1 : EReal) else 0
  rw [Finset.sum_eq_single b]
  · -- document b: position by position
    refine Finset.sum_congr rfl fun s _ => ?_
    rw [pair_fst, pair_snd, row_word_toInt, id_word ids hnn, weight]
    by_cases hm : mask (ix2 b s) = 1#1 <;> by_cases hv : (ids (ix2 b s)).toInt = (v.val : ℤ) <;> simp [hm, hv]
  · -- another document: its row word is not b
    intro a _ hab
    refine Finset.sum_eq_zero fun s _ => if_neg fun h => hab ?_
    have h1 := h.1
    rw [pair_fst, row_word_toInt] at h1
    exact Fin.ext (by omega)
  · intro hb
    exact absurd (Finset.mem_univ b) hb

end Cert.ReferenceIdeal.RefValue

end
-- ==== Proof.PreDecode.lean ====
/-
  The precondition read back. The printed predicate compares every token id, signed, with a broadcast zero word and
  reduces the comparison bits by `and` over both axes, from the constant 1. If the result is 1, every comparison bit is 1,
  and a signed "greater or equal" against the zero word that holds says the id's signed value is not negative.
-/
import proofs.«409082_j45286135169615_2_alg».proof.Pre_any_inputs
import Idealize.ShloMosaic.Lib.ReduceAll

namespace Cert.Pre_any_inputs

open Idealize.ShloMosaic

/-- The rank-0 shape has one index. -/
instance subsingleton_S_Idx : Subsingleton S_.Idx := ⟨fun _ _ => funext fun d => d.elim0⟩

/-- Where the printed precondition holds (its one result bit is 1), no token id is negative. -/
theorem ids_nonneg {F : FTy → Type} [FloatOps F] [Facts] (ids : IVec S1024x2048 32) (mask : IVec S1024x2048 1)
    (h : fn (F := F) ids mask = fun _ => 1#1) : ∀ i, 0 ≤ (ids i).toInt := by
  intro i
  -- the one result bit
  have h0 := congrFun h (fun a => a.elim0)
  dsimp only [fn] at h0
  -- the reduction by `and` over all axes is 1, so the comparison bit at `i` is 1
  have h1 := Host.reduce_andi_all _ _ _ _ _ h0 i
  -- that bit is the signed comparison of the id with the zero word
  have h2 : IntOp.cmpi .sge (ids i) 0#32 = 1#1 := h1
  exact IntOp.cmpi_sge.1 h2

end Cert.Pre_any_inputs
-- ==== Proof.lean ====
/-
  Per-document token counts: a two-digit one-hot contraction against a scatter-add.

  Both programs compute, for each document `b` of 1024 and each vocabulary entry `v` of 50257, the number of the
  document's 2048 positions whose mask bit is set and whose token id is `v` (`Cert.Count.counts`), under the
  precondition that no token id is negative (a negative id the reference would wrap python-style to `id + 50257`,
  while the kernel discards it).

  The reference adds each position's mask bit (as 0 or 1) at `(b, id)`; an id outside the table drops its update, so
  entry `(b, v)` is the sum over the document's positions of the mask bits whose id is `v`.

  The kernel first routes every position that is masked out, or whose id is no vocabulary entry, to the word 51199
  (beyond the vocabulary). For each batch tile of 32 documents it walks four sequence tiles of 512 positions and
  accumulates, in a [32, 200, 256] table, the products of the one-hot rows of the word's high digit `w >> 8` and low
  digit `w & 255`, contracted over the positions: entry `(p, h, l)` counts the positions whose word is `256 h + l`.
  After the fourth tile it copies the table's first 50257 entries of each row pair `(h, l)` to the output tile, column
  `v` from `(v / 256, v % 256)`. Over the extended reals every term is 0 or 1 and every sum is finite, so no
  finiteness is needed: the identity is the arithmetic of the two digits and the regrouping of a sum over 2048
  positions into four sums over 512.
-/
import proofs.«409082_j45286135169615_2_alg».proof.Defs
import proofs.«409082_j45286135169615_2_alg».proof.Proof.Gen.Kernel
import proofs.«409082_j45286135169615_2_alg».proof.Proof.Gen.Kernel.Skeleton
import proofs.«409082_j45286135169615_2_alg».proof.Proof.Gen.Kernel.Launch
import proofs.«409082_j45286135169615_2_alg».proof.Proof.Gen.Kernel.Points
import proofs.«409082_j45286135169615_2_alg».proof.Proof.FrameKernel
import proofs.«409082_j45286135169615_2_alg».proof.Proof.Gen.KernelIdeal
import proofs.«409082_j45286135169615_2_alg».proof.Proof.Gen.KernelIdeal.Skeleton
import proofs.«409082_j45286135169615_2_alg».proof.Proof.Gen.KernelIdeal.Launch
import proofs.«409082_j45286135169615_2_alg».proof.Proof.Gen.KernelIdeal.Points
import proofs.«409082_j45286135169615_2_alg».proof.Proof.FrameKernelIdeal
import proofs.«409082_j45286135169615_2_alg».proof.Proof.Gen.ReferenceIdeal
import proofs.«409082_j45286135169615_2_alg».proof.Proof.Gen.ReferenceIdeal.Run
import proofs.«409082_j45286135169615_2_alg».proof.Proof.Gen.ReferenceIdeal.Read
import proofs.«409082_j45286135169615_2_alg».proof.Proof.Gen.Pre_any_inputs
import proofs.«409082_j45286135169615_2_alg».proof.Proof.KernelCounts
import proofs.«409082_j45286135169615_2_alg».proof.Proof.RefValue
import proofs.«409082_j45286135169615_2_alg».proof.Proof.PreDecode
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel :=
  fun m ρ _ => Cert.Kernel.GenP.frame m ρ

/-- So does its idealization. -/
theorem frame_kernelIdeal : Cert.frame_KernelIdeal :=
  fun m ρ _ => Cert.KernelIdeal.GenP.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the counting function of the (agreeing) arguments: the kernel's table by the
    digit arithmetic, the reference's scatter by the precondition that no id is negative. -/
theorem algebraic : Cert.algebraic_KernelIdeal_ReferenceIdeal := by
  intro m ρ m' ρ' hpre hagree
  refine ⟨fun c => Cert.Count.counts (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Result.result_eq m c), (h c).2⟩)
      (Cert.KernelIdeal.Result.run m ρ)
  · refine (θ_run Cert.ReferenceIdeal.defs _ _).mono (fun r h c => ⟨(h c).1.trans ?_, (h c).2⟩)
      (Cert.ReferenceIdeal.Value.run (F := Ideal) m' ρ')
    show Cert.ReferenceIdeal.Read.val_main_v18 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
    rw [(hagree c).1, (hagree c).2]
    exact Cert.ReferenceIdeal.RefValue.ref_counts _ _
      (Cert.Pre_any_inputs.ids_nonneg (F := Ideal) _ _ (hpre c))

theorem claim : Cert.Claim :=
  ⟨Cert.Kernel.Gen.facts, Cert.KernelIdeal.Gen.facts, Cert.ReferenceIdeal.Gen.facts, Cert.Pre_any_inputs.Gen.facts,
    frame_kernel, frame_kernelIdeal, frame_reference, trivial, algebraic⟩

end Cert.Proof

end
